-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x8192 : Shape := ⟨3, ![64, 128, 8192]⟩
abbrev S64x128 : Shape := ⟨2, ![64, 128]⟩
abbrev S_ : Shape := ⟨0, ![]⟩

class Facts : Prop where
  bcast_S_S64x128x8192 : S_.BroadcastsInDim S64x128x8192 (![] : Fin 0 → Fin S64x128x8192.rank)
  reducesTo_S64x128x8192_S_d0_1_2 : S64x128x8192.ReducesTo [0, 1, 2] S_
  h_S_ : 0 < S_.numel

variable [Facts]

def fn {F : FTy → Type} [FloatOps F] (main_arg0 : FVec F S64x128x8192 .f32) (main_arg1 : IVec S64x128 32) : IVec S_ 1 :=
  let main_v0 : FVec F S64x128x8192 .f32 := Host.absf main_arg0
  let main_cst : FVec F S_ .f32 := constant S_ .f32 0x7F800000#32
  let main_v1 : FVec F S64x128x8192 .f32 := broadcastInDim S64x128x8192 ![] bcast_S_S64x128x8192 main_cst
  let main_v2 : IVec S64x128x8192 1 := cmpf .olt main_v0 main_v1
  let main_c : IVec S_ 1 := constantI S_ 1 1#1
  let main_v3 : IVec S_ 1 := (fun x v => Host.reduce IntOp.andi x v reducesTo_S64x128x8192_S_d0_1_2 h_S_) main_v2 main_c
  main_v3
-- ==== Kernel.lean ====
abbrev S64x128x8192 : Shape := ⟨3, ![64, 128, 8192]⟩
abbrev S64x128 : Shape := ⟨2, ![64, 128]⟩
abbrev S128 : Shape := ⟨1, ![128]⟩
abbrev S1x128 : Shape := ⟨2, ![1, 128]⟩
abbrev S_ : Shape := ⟨0, ![]⟩
abbrev S64x128x1 : Shape := ⟨3, ![64, 128, 1]⟩
abbrev S1x1x128 : Shape := ⟨3, ![1, 1, 128]⟩
abbrev S64x128x128 : Shape := ⟨3, ![64, 128, 128]⟩
abbrev S1x128x1 : Shape := ⟨3, ![1, 128, 1]⟩
abbrev S1x128x128 : Shape := ⟨3, ![1, 128, 128]⟩
abbrev S1x128x8192 : Shape := ⟨3, ![1, 128, 8192]⟩
abbrev S128x128 : Shape := ⟨2, ![128, 128]⟩
abbrev S128x8192 : Shape := ⟨2, ![128, 8192]⟩

abbrev nBuf : Space → Nat
  | .hbm => 51
  | .vmem => 6
  | .smem => 0
  | _ => 0

abbrev bufTy : (tb : Table) → Fin (tcTables nBuf tb) → BufTy
  | .hbm, ⟨0, _⟩ => ⟨S64x128x8192, .f32⟩
  | .hbm, ⟨1, _⟩ => ⟨S64x128, .i32⟩
  | .hbm, ⟨2, _⟩ => ⟨S128, .i32⟩
  | .hbm, ⟨3, _⟩ => ⟨S1x128, .i32⟩
  | .hbm, ⟨4, _⟩ => ⟨S64x128, .i32⟩
  | .hbm, ⟨5, _⟩ => ⟨S64x128, .i32⟩
  | .hbm, ⟨6, _⟩ => ⟨S_, .i32⟩
  | .hbm, ⟨7, _⟩ => ⟨S64x128, .i32⟩
  | .hbm, ⟨8, _⟩ => ⟨S64x128, .i1⟩
  | .hbm, ⟨9, _⟩ => ⟨S_, .i32⟩
  | .hbm, ⟨10, _⟩ => ⟨S64x128, .i32⟩
  | .hbm, ⟨11, _⟩ => ⟨S64x128, .i1⟩
  | .hbm, ⟨12, _⟩ => ⟨S64x128, .i1⟩
  | .hbm, ⟨13, _⟩ => ⟨S128, .i32⟩
  | .hbm, ⟨14, _⟩ => ⟨S64x128x1, .i32⟩
  | .hbm, ⟨15, _⟩ => ⟨S1x1x128, .i32⟩
  | .hbm, ⟨16, _⟩ => ⟨S64x128x128, .i32⟩
  | .hbm, ⟨17, _⟩ => ⟨S64x128x128, .i32⟩
  | .hbm, ⟨18, _⟩ => ⟨S64x128x128, .i1⟩
  | .hbm, ⟨19, _⟩ => ⟨S64x128x1, .i1⟩
  | .hbm, ⟨20, _⟩ => ⟨S64x128x128, .i1⟩
  | .hbm, ⟨21, _⟩ => ⟨S64x128x128, .i1⟩
  | .hbm, ⟨22, _⟩ => ⟨S1x128x1, .i32⟩
  | .hbm, ⟨23, _⟩ => ⟨S_, .i32⟩
  | .hbm, ⟨24, _⟩ => ⟨S64x128x128, .i32⟩
  | .hbm, ⟨25, _⟩ => ⟨S64x128x128, .i32⟩
  | .hbm, ⟨26, _⟩ => ⟨S64x128x128, .i32⟩
  | .hbm, ⟨27, _⟩ => ⟨S_, .i32⟩
  | .hbm, ⟨28, _⟩ => ⟨S64x128, .i32⟩
  | .hbm, ⟨29, _⟩ => ⟨S_, .i32⟩
  | .hbm, ⟨30, _⟩ => ⟨S64x128, .i32⟩
  | .hbm, ⟨31, _⟩ => ⟨S64x128, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S64x128, .i32⟩
  | .hbm, ⟨36, _⟩ => ⟨S64x128, .i32⟩
  | .hbm, ⟨37, _⟩ => ⟨S_, .i32⟩
  | .hbm, ⟨38, _⟩ => ⟨S64x128, .i32⟩
  | .hbm, ⟨39, _⟩ => ⟨S64x128, .i32⟩
  | .hbm, ⟨40, _⟩ => ⟨S64x128x1, .i32⟩
  | .hbm, ⟨41, _⟩ => ⟨S1x1x128, .i32⟩
  | .hbm, ⟨42, _⟩ => ⟨S64x128x128, .i32⟩
  | .hbm, ⟨43, _⟩ => ⟨S64x128x128, .i32⟩
  | .hbm, ⟨44, _⟩ => ⟨S64x128x128, .i1⟩
  | .hbm, ⟨45, _⟩ => ⟨S64x128x128, .f32⟩
  | .hbm, ⟨46, _⟩ => ⟨S64x128x1, .i1⟩
  | .hbm, ⟨47, _⟩ => ⟨S64x128x1, .f32⟩
  | .hbm, ⟨48, _⟩ => ⟨S64x128x128, .f32⟩
  | .hbm, ⟨49, _⟩ => ⟨S64x128x128, .f32⟩
  | .hbm, ⟨50, _⟩ => ⟨S64x128x8192, .f32⟩
  | .local _ .vmem, ⟨0, _⟩ => ⟨S1x128x128, .f32⟩
  | .local _ .vmem, ⟨1, _⟩ => ⟨S1x128x128, .f32⟩
  | .local _ .vmem, ⟨2, _⟩ => ⟨S1x128x8192, .f32⟩
  | .local _ .vmem, ⟨3, _⟩ => ⟨S1x128x8192, .f32⟩
  | .local _ .vmem, ⟨4, _⟩ => ⟨S1x128x8192, .f32⟩
  | .local _ .vmem, ⟨5, _⟩ => ⟨S1x128x8192, .f32⟩
  | _, _ => ⟨S64x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_c_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v23 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S128_S1x1x128_2 : S128.BroadcastsInDim S1x1x128 (![2] : Fin 1 → Fin S1x1x128.rank)
  bcast_S64x128x1_S64x128x128_0_1_2 : S64x128x1.BroadcastsInDim S64x128x128 (![0, 1, 2] : Fin 3 → Fin S64x128x128.rank)
  bcast_S1x1x128_S64x128x128_0_1_2 : S1x1x128.BroadcastsInDim S64x128x128 (![0, 1, 2] : Fin 3 → Fin S64x128x128.rank)
  bcast_S128_S1x128x1_1 : S128.BroadcastsInDim S1x128x1 (![1] : Fin 1 → Fin S1x128x1.rank)
  bcast_S1x128x1_S64x128x128_0_1_2 : S1x128x1.BroadcastsInDim S64x128x128 (![0, 1, 2] : Fin 3 → Fin S64x128x128.rank)
  bcast_S_S64x128x128 : S_.BroadcastsInDim S64x128x128 (![] : Fin 0 → Fin S64x128x128.rank)
  reducesTo_S64x128x128_S64x128_d1 : S64x128x128.ReducesTo [1] S64x128
  h_S_ : 0 < S_.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  shapeCasts_S128x8192_S1x128x8192 : S128x8192.ShapeCasts S1x128x8192
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S64x128x128.size a
  hwx0_0 : ∀ i : grid0.Coords, EltTy.bits .f32 = 32 ∨ (Rect.block (s := S64x128x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x8192.size a ≤ S64x128x8192.size a
  hwx0_1 : ∀ i : grid0.Coords, EltTy.bits .f32 = 32 ∨ (Rect.block (s := S64x128x8192) S1x128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x8192.size a ≤ S64x128x8192.size a
  hwx0_2 : ∀ i : grid0.Coords, EltTy.bits .f32 = 32 ∨ (Rect.block (s := S64x128x8192) S1x128x8192.size (cc0_transform_2 i) (hinb0_2 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v28) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x128x8192 : Shape := ⟨3, ![64, 128, 8192]⟩
abbrev S64x128 : Shape := ⟨2, ![64, 128]⟩
abbrev S128 : Shape := ⟨1, ![128]⟩
abbrev S1x128 : Shape := ⟨2, ![1, 128]⟩
abbrev S_ : Shape := ⟨0, ![]⟩
abbrev S64 : Shape := ⟨1, ![64]⟩
abbrev S64x1 : Shape := ⟨2, ![64, 1]⟩
abbrev S8192 : Shape := ⟨1, ![8192]⟩
abbrev S8256 : Shape := ⟨1, ![8256]⟩
abbrev S8192x1 : Shape := ⟨2, ![8192, 1]⟩
abbrev S64x129 : Shape := ⟨2, ![64, 129]⟩
abbrev S64x128x1 : Shape := ⟨3, ![64, 128, 1]⟩
abbrev S64x128x2 : Shape := ⟨3, ![64, 128, 2]⟩

abbrev nBuf : Space → Nat
  | .hbm => 70
  | .vmem => 0
  | .smem => 0
  | _ => 0

abbrev bufTy : (tb : Table) → Fin (tcTables nBuf tb) → BufTy
  | .hbm, ⟨0, _⟩ => ⟨S64x128x8192, .f32⟩
  | .hbm, ⟨1, _⟩ => ⟨S64x128, .i32⟩
  | .hbm, ⟨2, _⟩ => ⟨S128, .i32⟩
  | .hbm, ⟨3, _⟩ => ⟨S1x128, .i32⟩
  | .hbm, ⟨4, _⟩ => ⟨S64x128, .i32⟩
  | .hbm, ⟨5, _⟩ => ⟨S64x128, .i32⟩
  | .hbm, ⟨6, _⟩ => ⟨S_, .i32⟩
  | .hbm, ⟨7, _⟩ => ⟨S64x128, .i32⟩
  | .hbm, ⟨8, _⟩ => ⟨S64x128, .i1⟩
  | .hbm, ⟨9, _⟩ => ⟨S_, .i32⟩
  | .hbm, ⟨10, _⟩ => ⟨S64x128, .i32⟩
  | .hbm, ⟨11, _⟩ => ⟨S64x128, .i1⟩
  | .hbm, ⟨12, _⟩ => ⟨S64x128, .i1⟩
  | .hbm, ⟨13, _⟩ => ⟨S_, .i32⟩
  | .hbm, ⟨14, _⟩ => ⟨S_, .i32⟩
  | .hbm, ⟨15, _⟩ => ⟨S64x128, .i32⟩
  | .hbm, ⟨16, _⟩ => ⟨S64x128, .i32⟩
  | .hbm, ⟨17, _⟩ => ⟨S64, .i32⟩
  | .hbm, ⟨18, _⟩ => ⟨S64x1, .i32⟩
  | .hbm, ⟨19, _⟩ => ⟨S_, .i32⟩
  | .hbm, ⟨20, _⟩ => ⟨S64x1, .i32⟩
  | .hbm, ⟨21, _⟩ => ⟨S64x1, .i32⟩
  | .hbm, ⟨22, _⟩ => ⟨S64x128, .i32⟩
  | .hbm, ⟨23, _⟩ => ⟨S64x128, .i32⟩
  | .hbm, ⟨24, _⟩ => ⟨S8192, .i32⟩
  | .hbm, ⟨25, _⟩ => ⟨S64x128, .i32⟩
  | .hbm, ⟨26, _⟩ => ⟨S8192, .i32⟩
  | .hbm, ⟨27, _⟩ => ⟨S_, .i32⟩
  | .hbm, ⟨28, _⟩ => ⟨S8256, .i32⟩
  | .hbm, ⟨29, _⟩ => ⟨S8192x1, .i32⟩
  | .hbm, ⟨30, _⟩ => ⟨S8256, .i32⟩
  | .hbm, ⟨31, _⟩ => ⟨S64x129, .i32⟩
  | .hbm, ⟨32, _⟩ => ⟨S64x128, .i32⟩
  | .hbm, ⟨33, _⟩ => ⟨S_, .i32⟩
  | .hbm, ⟨34, _⟩ => ⟨S64x128, .i32⟩
  | .hbm, ⟨35, _⟩ => ⟨S64x128, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S64x128, .i32⟩
  | .hbm, ⟨40, _⟩ => ⟨S64x128, .i32⟩
  | .hbm, ⟨41, _⟩ => ⟨S_, .i32⟩
  | .hbm, ⟨42, _⟩ => ⟨S64x128, .i32⟩
  | .hbm, ⟨43, _⟩ => ⟨S64x128, .i32⟩
  | .hbm, ⟨44, _⟩ => ⟨S64, .i32⟩
  | .hbm, ⟨45, _⟩ => ⟨S64x1, .i32⟩
  | .hbm, ⟨46, _⟩ => ⟨S_, .i32⟩
  | .hbm, ⟨47, _⟩ => ⟨S64x1, .i32⟩
  | .hbm, ⟨48, _⟩ => ⟨S64x1, .i1⟩
  | .hbm, ⟨49, _⟩ => ⟨S_, .i32⟩
  | .hbm, ⟨50, _⟩ => ⟨S64x1, .i32⟩
  | .hbm, ⟨51, _⟩ => ⟨S64x1, .i32⟩
  | .hbm, ⟨52, _⟩ => ⟨S64x1, .i32⟩
  | .hbm, ⟨53, _⟩ => ⟨S_, .i32⟩
  | .hbm, ⟨54, _⟩ => ⟨S64x128, .i32⟩
  | .hbm, ⟨55, _⟩ => ⟨S64x128, .i1⟩
  | .hbm, ⟨56, _⟩ => ⟨S_, .i32⟩
  | .hbm, ⟨57, _⟩ => ⟨S64x128, .i32⟩
  | .hbm, ⟨58, _⟩ => ⟨S64x128, .i32⟩
  | .hbm, ⟨59, _⟩ => ⟨S64x128, .i32⟩
  | .hbm, ⟨60, _⟩ => ⟨S64x128, .i32⟩
  | .hbm, ⟨61, _⟩ => ⟨S64x128x1, .i32⟩
  | .hbm, ⟨62, _⟩ => ⟨S64x128x1, .i32⟩
  | .hbm, ⟨63, _⟩ => ⟨S64x128x2, .i32⟩
  | .hbm, ⟨64, _⟩ => ⟨S64x128x8192, .f32⟩
  | .hbm, ⟨65, _⟩ => ⟨S64x128x1, .i1⟩
  | .hbm, ⟨66, _⟩ => ⟨S_, .f32⟩
  | .hbm, ⟨67, _⟩ => ⟨S64x128x8192, .i1⟩
  | .hbm, ⟨68, _⟩ => ⟨S64x128x8192, .f32⟩
  | .hbm, ⟨69, _⟩ => ⟨S64x128x8192, .f32⟩
  | _, _ => ⟨S64x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_c_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_v45 : Ref sig .tc := ⟨.hbm, 69, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  shapeCasts_S64x128_S8192 : S64x128.ShapeCasts S8192
  bcast_S128_S64x128_1 : S128.BroadcastsInDim S64x128 (![1] : Fin 1 → Fin S64x128.rank)
  bcast_S_S8256 : S_.BroadcastsInDim S8256 (![] : Fin 0 → Fin S8256.rank)
  bcast_S8192_S8192x1_0 : S8192.BroadcastsInDim S8192x1 (![0] : Fin 1 → Fin S8192x1.rank)
  shapeCasts_S8256_S64x129 : S8256.ShapeCasts S64x129
  slices_S64x129_S64x128_0_0 : S64x129.Slices ![0, 0] S64x128
  bcast_S64x128_S64x128x1_0_1 : S64x128.BroadcastsInDim S64x128x1 (![0, 1] : Fin 2 → Fin S64x128x1.rank)
  concatenates_S64x128x1_S64x128x1_S64x128x2_d2 : Shape.Concatenates [S64x128x1, S64x128x1] S64x128x2 2
  bcast_S64x128x1_S64x128x8192_0_1_2 : S64x128x1.BroadcastsInDim S64x128x8192 (![0, 1, 2] : Fin 3 → Fin S64x128x8192.rank)
  bcast_S_S64x128x8192 : S_.BroadcastsInDim S64x128x8192 (![] : Fin 0 → Fin S64x128x8192.rank)
  scatter_S8256_S8192x1_S8192_n_0_0_1_wf : ScatterDims.WF S8256 S8192x1 S8192 [] [0] [0] 1
  gather_S64x128x8192_S64x128x2_S64x128x8192_2_01_n_n_01_2_118192_wf : GatherDims.WF S64x128x8192 S64x128x2 S64x128x8192 [2] [0, 1] [] [0, 1] [] 2 ![1, 1, 8192]

variable [Facts₀]

def scatter_S8256_S8192x1_S8192_n_0_0_1 : ScatterDims S8256 S8192x1 S8192 where
  updateWindowDims := []
  insertedWindowDims := [0]
  scatterDimsToOperandDims := [0]
  indexVectorDim := 1
  wf := scatter_S8256_S8192x1_S8192_n_0_0_1_wf
def gather_S64x128x8192_S64x128x2_S64x128x8192_2_01_n_n_01_2_118192 : GatherDims S64x128x8192 S64x128x2 S64x128x8192 where
  offsetDims := [2]
  collapsedSliceDims := [0, 1]
  operandBatchingDims := []
  startIndicesBatchingDims := []
  startIndexMap := [0, 1]
  indexVectorDim := 2
  sliceSizes := ![1, 1, 8192]
  wf := gather_S64x128x8192_S64x128x2_S64x128x8192_2_01_n_n_01_2_118192_wf

class Facts : Prop extends Facts₀ where

variable [Facts]
-- ==== Proof.RefRunStretches.lean ====
/-
  THE REFERENCE'S RUN, READ IN THREE STRETCHES. The reference's 68 host operations compute, from the shifts, the segment of
  every move, the segment maxima kept per batch, the flag "somebody landed here" and the pair of indices of the row to
  fetch, and from the spikes the fetched row or zero. The kept segment maxima are read four times by what follows them, so
  the composed term of the whole line holds them four times over. Cut where few values pass from one stretch to the next,
  and read at any contents of the buffers a stretch starts from, each stretch names them once; the stretches in a row are
  the whole line, and the stages written out are the composed term.
-/
import proofs.«418776_j65687229825160_1_alg».proof.Proof.RefRun
import Idealize.ShloMosaic.Lib.Pipeline.Frame

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The run, read in three stretches

The 68 operations are cut where the values one stretch hands to the next are few. The first stretch ends at the segment
maxima kept per batch (`main_v23`: for each batch and output slot the largest source slot that lands on it, the initial
word where none does), a function of the shifts alone. The second turns them into the flag "somebody landed here"
(`main_v25`) and the two index columns of the row to fetch (`main_v40` the batch, `main_v41` the last writer clipped into
the slots). The third joins the two columns, gathers the rows of the spikes and selects row or zero. Each stretch is
read at ANY contents of the buffers it starts from, so the segment maxima, which the second stretch reads three times and
the third once more through the flag, stand in its statement as one value. -/

/-- The first stretch: the moves' segments, the segment maximum over them, and the segments kept per batch. -/
abbrev opsSeg : List (HloOp τ sig (Elt F)) :=
  [ nullary main_v0 (iotaInDim S128 32 0),
    unary main_v0 main_v1 (broadcastInDim S1x128 ![1] bcast_S128_S1x128_1 : (⟨S128, .i32⟩ : BufTy).Contents (Elt F) → (⟨S1x128, .i32⟩ : BufTy).Contents (Elt F)),
    unary main_v1 main_v2 (broadcastInDim S64x128 ![0, 1] bcast_S1x128_S64x128_0_1 : (⟨S1x128, .i32⟩ : BufTy).Contents (Elt F) → (⟨S64x128, .i32⟩ : BufTy).Contents (Elt F)),
    binary main_v2 main_arg1 main_v3 (addi : (⟨S64x128, .i32⟩ : BufTy).Contents (Elt F) → (⟨S64x128, .i32⟩ : BufTy).Contents (Elt F) → (⟨S64x128, .i32⟩ : BufTy).Contents (Elt F)),
    nullary main_c (constantI S_ 32 0#32),
    unary main_c main_v4 (broadcastInDim S64x128 ![] bcast_S_S64x128 : (⟨S_, .i32⟩ : BufTy).Contents (Elt F) → (⟨S64x128, .i32⟩ : BufTy).Contents (Elt F)),
    binary main_v3 main_v4 main_v5 (cmpi .sge : (⟨S64x128, .i32⟩ : BufTy).Contents (Elt F) → (⟨S64x128, .i32⟩ : BufTy).Contents (Elt F) → (⟨S64x128, .i1⟩ : BufTy).Contents (Elt F)),
    nullary main_c_0 (constantI S_ 32 128#32),
    unary main_c_0 main_v6 (broadcastInDim S64x128 ![] bcast_S_S64x128 : (⟨S_, .i32⟩ : BufTy).Contents (Elt F) → (⟨S64x128, .i32⟩ : BufTy).Contents (Elt F)),
    binary main_v3 main_v6 main_v7 (cmpi .slt : (⟨S64x128, .i32⟩ : BufTy).Contents (Elt F) → (⟨S64x128, .i32⟩ : BufTy).Contents (Elt F) → (⟨S64x128, .i1⟩ : BufTy).Contents (Elt F)),
    binary main_v5 main_v7 main_v8 (andi : (⟨S64x128, .i1⟩ : BufTy).Contents (Elt F) → (⟨S64x128, .i1⟩ : BufTy).Contents (Elt F) → (⟨S64x128, .i1⟩ : BufTy).Contents (Elt F)),
    nullary main_c_1 (constantI S_ 32 128#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S64x128, .i32⟩) main_call0_v1) (broadcastInDim S64x128 ![] bcast_S_S64x128),
    TRef.ternary (TRef.of (T := ⟨S64x128, .i1⟩) main_v8) (TRef.of (T := ⟨S64x128, .i32⟩) main_v3) (TRef.of (T := ⟨S64x128, .i32⟩) main_call0_v1) (TRef.of (T := ⟨S64x128, .i32⟩) main_v9) select,
    nullary main_v10 (iotaInDim S64 32 0),
    unary main_v10 main_v11 (broadcastInDim S64x1 ![0] bcast_S64_S64x1_0 : (⟨S64, .i32⟩ : BufTy).Contents (Elt F) → (⟨S64x1, .i32⟩ : BufTy).Contents (Elt F)),
    nullary main_c_2 (constantI S_ 32 129#32),
    unary main_c_2 main_v12 (broadcastInDim S64x1 ![] bcast_S_S64x1 : (⟨S_, .i32⟩ : BufTy).Contents (Elt F) → (⟨S64x1, .i32⟩ : BufTy).Contents (Elt F)),
    binary main_v11 main_v12 main_v13 (muli : (⟨S64x1, .i32⟩ : BufTy).Contents (Elt F) → (⟨S64x1, .i32⟩ : BufTy).Contents (Elt F) → (⟨S64x1, .i32⟩ : BufTy).Contents (Elt F)),
    unary main_v13 main_v14 (broadcastInDim S64x128 ![0, 1] bcast_S64x1_S64x128_0_1 : (⟨S64x1, .i32⟩ : BufTy).Contents (Elt F) → (⟨S64x128, .i32⟩ : BufTy).Contents (Elt F)),
    binary main_v14 main_v9 main_v15 (addi : (⟨S64x128, .i32⟩ : BufTy).Contents (Elt F) → (⟨S64x128, .i32⟩ : BufTy).Contents (Elt F) → (⟨S64x128, .i32⟩ : BufTy).Contents (Elt F)),
    reshape main_v15 main_v16 rfl shapeCasts_S64x128_S8192,
    unary main_v0 main_v17 (broadcastInDim S64x128 ![1] bcast_S128_S64x128_1 : (⟨S128, .i32⟩ : BufTy).Contents (Elt F) → (⟨S64x128, .i32⟩ : BufTy).Contents (Elt F)),
    reshape main_v17 main_v18 rfl shapeCasts_S64x128_S8192,
    nullary main_c_3 (constantI S_ 32 2147483648#32),
    unary main_c_3 main_v19 (broadcastInDim S8256 ![] bcast_S_S8256 : (⟨S_, .i32⟩ : BufTy).Contents (Elt F) → (⟨S8256, .i32⟩ : BufTy).Contents (Elt F)),
    unary main_v16 main_v20 (broadcastInDim S8192x1 ![0] bcast_S8192_S8192x1_0 : (⟨S8192, .i32⟩ : BufTy).Contents (Elt F) → (⟨S8192x1, .i32⟩ : BufTy).Contents (Elt F)),
    ternary main_v19 main_v20 main_v18 main_v21 ((fun x i u => Host.scatter scatter_S8256_S8192x1_S8192_n_0_0_1 IntOp.maxsi x i u) : (⟨S8256, .i32⟩ : BufTy).Contents (Elt F) → (⟨S8192x1, .i32⟩ : BufTy).Contents (Elt F) → (⟨S8192, .i32⟩ : BufTy).Contents (Elt F) → (⟨S8256, .i32⟩ : BufTy).Contents (Elt F)),
    reshape main_v21 main_v22 rfl shapeCasts_S8256_S64x129,
    unary main_v22 main_v23 ((extractStridedSlice S64x128 ![0, 0] · slices_S64x129_S64x128_0_0) : (⟨S64x129, .i32⟩ : BufTy).Contents (Elt F) → (⟨S64x128, .i32⟩ : BufTy).Contents (Elt F)) ]

/-- The second stretch: the flag and the two index columns, from the kept segment maxima. -/
abbrev opsIdx : List (HloOp τ sig (Elt F)) :=
  [ nullary main_c_4 (constantI S_ 32 0#32),
    unary main_c_4 main_v24 (broadcastInDim S64x128 ![] bcast_S_S64x128 : (⟨S_, .i32⟩ : BufTy).Contents (Elt F) → (⟨S64x128, .i32⟩ : BufTy).Contents (Elt F)),
    binary main_v23 main_v24 main_v25 (cmpi .sge : (⟨S64x128, .i32⟩ : BufTy).Contents (Elt F) → (⟨S64x128, .i32⟩ : BufTy).Contents (Elt F) → (⟨S64x128, .i1⟩ : BufTy).Contents (Elt F)),
    nullary main_c_5 (constantI S_ 32 0#32),
    nullary main_c_6 (constantI S_ 32 127#32),
    TRef.unary (TRef.of (T := ⟨S_, .i32⟩) main_c_5) (TRef.of (T := ⟨S_, .i32⟩) main_call1_v0) id,
    TRef.unary (TRef.of (T := ⟨S_, .i32⟩) main_call1_v0) (TRef.of (T := ⟨S64x128, .i32⟩) main_call1_v1) (broadcastInDim S64x128 ![] bcast_S_S64x128),
    TRef.binary (TRef.of (T := ⟨S64x128, .i32⟩) main_call1_v1) (TRef.of (T := ⟨S64x128, .i32⟩) main_v23) (TRef.of (T := ⟨S64x128, .i32⟩) main_call1_v2) maxsi,
    TRef.unary (TRef.of (T := ⟨S_, .i32⟩) main_c_6) (TRef.of (T := ⟨S_, .i32⟩) main_call1_v3) id,
    TRef.unary (TRef.of (T := ⟨S_, .i32⟩) main_call1_v3) (TRef.of (T := ⟨S64x128, .i32⟩) main_call1_v4) (broadcastInDim S64x128 ![] bcast_S_S64x128),
    TRef.binary (TRef.of (T := ⟨S64x128, .i32⟩) main_call1_v4) (TRef.of (T := ⟨S64x128, .i32⟩) main_call1_v2) (TRef.of (T := ⟨S64x128, .i32⟩) main_v26) minsi,
    nullary main_v27 (iotaInDim S64 32 0),
    unary main_v27 main_v28 (broadcastInDim S64x1 ![0] bcast_S64_S64x1_0 : (⟨S64, .i32⟩ : BufTy).Contents (Elt F) → (⟨S64x1, .i32⟩ : BufTy).Contents (Elt F)),
    nullary main_c_7 (constantI S_ 32 0#32),
    unary main_c_7 main_v29 (broadcastInDim S64x1 ![] bcast_S_S64x1 : (⟨S_, .i32⟩ : BufTy).Contents (Elt F) → (⟨S64x1, .i32⟩ : BufTy).Contents (Elt F)),
    binary main_v28 main_v29 main_v30 (cmpi .slt : (⟨S64x1, .i32⟩ : BufTy).Contents (Elt F) → (⟨S64x1, .i32⟩ : BufTy).Contents (Elt F) → (⟨S64x1, .i1⟩ : BufTy).Contents (Elt F)),
    nullary main_c_8 (constantI S_ 32 64#32),
    unary main_c_8 main_v31 (broadcastInDim S64x1 ![] bcast_S_S64x1 : (⟨S_, .i32⟩ : BufTy).Contents (Elt F) → (⟨S64x1, .i32⟩ : BufTy).Contents (Elt F)),
    binary main_v28 main_v31 main_v32 (addi : (⟨S64x1, .i32⟩ : BufTy).Contents (Elt F) → (⟨S64x1, .i32⟩ : BufTy).Contents (Elt F) → (⟨S64x1, .i32⟩ : BufTy).Contents (Elt F)),
    ternary main_v30 main_v32 main_v28 main_v33 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_9 (constantI S_ 32 0#32),
    unary main_c_9 main_v34 (broadcastInDim S64x128 ![] bcast_S_S64x128 : (⟨S_, .i32⟩ : BufTy).Contents (Elt F) → (⟨S64x128, .i32⟩ : BufTy).Contents (Elt F)),
    binary main_v26 main_v34 main_v35 (cmpi .slt : (⟨S64x128, .i32⟩ : BufTy).Contents (Elt F) → (⟨S64x128, .i32⟩ : BufTy).Contents (Elt F) → (⟨S64x128, .i1⟩ : BufTy).Contents (Elt F)),
    nullary main_c_10 (constantI S_ 32 128#32),
    unary main_c_10 main_v36 (broadcastInDim S64x128 ![] bcast_S_S64x128 : (⟨S_, .i32⟩ : BufTy).Contents (Elt F) → (⟨S64x128, .i32⟩ : BufTy).Contents (Elt F)),
    binary main_v26 main_v36 main_v37 (addi : (⟨S64x128, .i32⟩ : BufTy).Contents (Elt F) → (⟨S64x128, .i32⟩ : BufTy).Contents (Elt F) → (⟨S64x128, .i32⟩ : BufTy).Contents (Elt F)),
    ternary main_v35 main_v37 main_v26 main_v38 (select : (⟨S64x128, .i1⟩ : BufTy).Contents (Elt F) → (⟨S64x128, .i32⟩ : BufTy).Contents (Elt F) → (⟨S64x128, .i32⟩ : BufTy).Contents (Elt F) → (⟨S64x128, .i32⟩ : BufTy).Contents (Elt F)),
    unary main_v33 main_v39 (broadcastInDim S64x128 ![0, 1] bcast_S64x1_S64x128_0_1 : (⟨S64x1, .i32⟩ : BufTy).Contents (Elt F) → (⟨S64x128, .i32⟩ : BufTy).Contents (Elt F)),
    unary main_v39 main_v40 (broadcastInDim S64x128x1 ![0, 1] bcast_S64x128_S64x128x1_0_1 : (⟨S64x128, .i32⟩ : BufTy).Contents (Elt F) → (⟨S64x128x1, .i32⟩ : BufTy).Contents (Elt F)),
    unary main_v38 main_v41 (broadcastInDim S64x128x1 ![0, 1] bcast_S64x128_S64x128x1_0_1 : (⟨S64x128, .i32⟩ : BufTy).Contents (Elt F) → (⟨S64x128x1, .i32⟩ : BufTy).Contents (Elt F)) ]

/-- The third stretch: the index pairs, the gathered rows, the selection. -/
abbrev opsPick : List (HloOp τ sig (Elt F)) :=
  [ binary main_v40 main_v41 main_v42 ((fun a b => concatenate S64x128x2 2 [⟨S64x128x1, a⟩, ⟨S64x128x1, b⟩] concatenates_S64x128x1_S64x128x1_S64x128x2_d2) : (⟨S64x128x1, .i32⟩ : BufTy).Contents (Elt F) → (⟨S64x128x1, .i32⟩ : BufTy).Contents (Elt F) → (⟨S64x128x2, .i32⟩ : BufTy).Contents (Elt F)),
    binary main_arg0 main_v42 main_v43 ((fun x i => Host.gather gather_S64x128x8192_S64x128x2_S64x128x8192_2_01_n_n_01_2_118192 x i) : (⟨S64x128x8192, .f32⟩ : BufTy).Contents (Elt F) → (⟨S64x128x2, .i32⟩ : BufTy).Contents (Elt F) → (⟨S64x128x8192, .f32⟩ : BufTy).Contents (Elt F)),
    unary main_v25 main_v44 (broadcastInDim S64x128x1 ![0, 1] bcast_S64x128_S64x128x1_0_1 : (⟨S64x128, .i1⟩ : BufTy).Contents (Elt F) → (⟨S64x128x1, .i1⟩ : BufTy).Contents (Elt F)),
    nullary main_cst (constant S_ .f32 0x00000000#32),
    TRef.unary (TRef.of (T := ⟨S64x128x1, .i1⟩) main_v44) (TRef.of (T := ⟨S64x128x8192, .i1⟩) main_call2_v0) (broadcastInDim S64x128x8192 ![0, 1, 2] bcast_S64x128x1_S64x128x8192_0_1_2),
    TRef.unary (TRef.of (T := ⟨S_, .f32⟩) main_cst) (TRef.of (T := ⟨S64x128x8192, .f32⟩) main_call2_v1) (broadcastInDim S64x128x8192 ![] bcast_S_S64x128x8192),
    TRef.ternary (TRef.of (T := ⟨S64x128x8192, .i1⟩) main_call2_v0) (TRef.of (T := ⟨S64x128x8192, .f32⟩) main_v43) (TRef.of (T := ⟨S64x128x8192, .f32⟩) main_call2_v1) (TRef.of (T := ⟨S64x128x8192, .f32⟩) main_v45) select ]

set_option maxRecDepth 65536 in
/-- The line of operations is the three stretches in a row. -/
theorem ops_cut : (ops : List (HloOp τ sig (Elt F))) = opsSeg ++ (opsIdx ++ opsPick) := rfl

set_option maxRecDepth 8192 in
/-- The kept segment maxima as a function of the shifts `x1`: entry `(b, tout)` is the signed maximum, from the least
    word, of the source slots `t` of batch `b` whose move counts and lands on `tout`. -/
def segKept (x1 : (⟨S64x128, .i32⟩ : BufTy).Contents (Elt F)) : (⟨S64x128, .i32⟩ : BufTy).Contents (Elt F) :=
  extractStridedSlice S64x128 ![0, 0] (shapeCast _ (Host.scatter scatter_S8256_S8192x1_S8192_n_0_0_1 IntOp.maxsi (broadcastInDim S8256 ![] bcast_S_S8256 (constantI S_ 32 2147483648#32)) (broadcastInDim S8192x1 ![0] bcast_S8192_S8192x1_0 (shapeCast _ (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 129#32)))) (select (andi (cmpi .sge (addi (broadcastInDim S64x128 ![0, 1] bcast_S1x128_S64x128_0_1 (broadcastInDim S1x128 ![1] bcast_S128_S1x128_1 (iotaInDim S128 32 0))) x1) (broadcastInDim S64x128 ![] bcast_S_S64x128 (constantI S_ 32 0#32))) (cmpi .slt (addi (broadcastInDim S64x128 ![0, 1] bcast_S1x128_S64x128_0_1 (broadcastInDim S1x128 ![1] bcast_S128_S1x128_1 (iotaInDim S128 32 0))) x1) (broadcastInDim S64x128 ![] bcast_S_S64x128 (constantI S_ 32 128#32)))) (addi (broadcastInDim S64x128 ![0, 1] bcast_S1x128_S64x128_0_1 (broadcastInDim S1x128 ![1] bcast_S128_S1x128_1 (iotaInDim S128 32 0))) x1) (broadcastInDim S64x128 ![] bcast_S_S64x128 (id (constantI S_ 32 128#32))))) shapeCasts_S64x128_S8192)) (shapeCast _ (broadcastInDim S64x128 ![1] bcast_S128_S64x128_1 (iotaInDim S128 32 0)) shapeCasts_S64x128_S8192)) shapeCasts_S8256_S64x129) slices_S64x129_S64x128_0_0

set_option maxRecDepth 8192 in
/-- "Some source slot landed here": the kept maximum is not negative. -/
def written (s : (⟨S64x128, .i32⟩ : BufTy).Contents (Elt F)) : (⟨S64x128, .i1⟩ : BufTy).Contents (Elt F) :=
  cmpi .sge s (broadcastInDim S64x128 ![] bcast_S_S64x128 (constantI S_ 32 0#32))

set_option maxRecDepth 8192 in
/-- The batch coordinate of the row to fetch: the batch itself, as a column. -/
def batchCol : (⟨S64x128x1, .i32⟩ : BufTy).Contents (Elt F) :=
  broadcastInDim S64x128x1 ![0, 1] bcast_S64x128_S64x128x1_0_1 (broadcastInDim S64x128 ![0, 1] bcast_S64x1_S64x128_0_1 (select (cmpi .slt (broadcastInDim S64x1 ![0] bcast_S64_S64x1_0 (iotaInDim S64 32 0)) (broadcastInDim S64x1 ![] bcast_S_S64x1 (constantI S_ 32 0#32))) (addi (broadcastInDim S64x1 ![0] bcast_S64_S64x1_0 (iotaInDim S64 32 0)) (broadcastInDim S64x1 ![] bcast_S_S64x1 (constantI S_ 32 64#32))) (broadcastInDim S64x1 ![0] bcast_S64_S64x1_0 (iotaInDim S64 32 0))))

set_option maxRecDepth 8192 in
/-- The slot coordinate of the row to fetch: the kept maximum clipped into the slots, as a column. -/
def rowCol (s : (⟨S64x128, .i32⟩ : BufTy).Contents (Elt F)) : (⟨S64x128x1, .i32⟩ : BufTy).Contents (Elt F) :=
  broadcastInDim S64x128x1 ![0, 1] bcast_S64x128_S64x128x1_0_1 (select (cmpi .slt (minsi (broadcastInDim S64x128 ![] bcast_S_S64x128 (id (constantI S_ 32 127#32))) (maxsi (broadcastInDim S64x128 ![] bcast_S_S64x128 (id (constantI S_ 32 0#32))) s)) (broadcastInDim S64x128 ![] bcast_S_S64x128 (constantI S_ 32 0#32))) (addi (minsi (broadcastInDim S64x128 ![] bcast_S_S64x128 (id (constantI S_ 32 127#32))) (maxsi (broadcastInDim S64x128 ![] bcast_S_S64x128 (id (constantI S_ 32 0#32))) s)) (broadcastInDim S64x128 ![] bcast_S_S64x128 (constantI S_ 32 128#32))) (minsi (broadcastInDim S64x128 ![] bcast_S_S64x128 (id (constantI S_ 32 127#32))) (maxsi (broadcastInDim S64x128 ![] bcast_S_S64x128 (id (constantI S_ 32 0#32))) s)))

set_option maxRecDepth 8192 in
/-- The result from the spikes `x0`, the flag `p` and the two index columns: the fetched row where the flag holds, zero elsewhere. -/
def picked (x0 : (⟨S64x128x8192, .f32⟩ : BufTy).Contents (Elt F)) (p : (⟨S64x128, .i1⟩ : BufTy).Contents (Elt F)) (a b : (⟨S64x128x1, .i32⟩ : BufTy).Contents (Elt F)) : (⟨S64x128x8192, .f32⟩ : BufTy).Contents (Elt F) :=
  select (broadcastInDim S64x128x8192 ![0, 1, 2] bcast_S64x128x1_S64x128x8192_0_1_2 (broadcastInDim S64x128x1 ![0, 1] bcast_S64x128_S64x128x1_0_1 p)) (Host.gather gather_S64x128x8192_S64x128x2_S64x128x8192_2_01_n_n_01_2_118192 x0 (concatenate S64x128x2 2 [⟨S64x128x1, a⟩, ⟨S64x128x1, b⟩] concatenates_S64x128x1_S64x128x1_S64x128x2_d2)) (broadcastInDim S64x128x8192 ![] bcast_S_S64x128x8192 (constant S_ .f32 0x00000000#32))

section Stretches

variable (V : Valuation τ sig (Elt F))

set_option maxRecDepth 8192 in
set_option maxHeartbeats 4000000 in
/-- After the first stretch the kept segment maxima are `segKept` of the shifts the stretch started from. -/
theorem after_opsSeg_v23 :
    after (opsSeg (F := F)) V (Proc.devRef .tc main_v23) = segKept (F := F) (V (Proc.devRef .tc main_arg1)) := by
  after_results_simp
  try simp only [TRef.ofBuf, TRef.toBuf, cast_eq]
  rfl

set_option maxRecDepth 8192 in
/-- The first stretch leaves the spikes alone. -/
theorem after_opsSeg_arg0 :
    after (opsSeg (F := F)) V (Proc.devRef .tc main_arg0) = V (Proc.devRef .tc main_arg0) := by
  after_results_simp

set_option maxRecDepth 8192 in
set_option maxHeartbeats 4000000 in
/-- After the second stretch the flag is `written` of the kept maxima it started from. -/
theorem after_opsIdx_v25 :
    after (opsIdx (F := F)) V (Proc.devRef .tc main_v25) = written (F := F) (V (Proc.devRef .tc main_v23)) := by
  after_results_simp
  try simp only [TRef.ofBuf, TRef.toBuf, cast_eq]
  rfl

set_option maxRecDepth 8192 in
set_option maxHeartbeats 4000000 in
/-- After the second stretch the batch column is `batchCol`. -/
theorem after_opsIdx_v40 :
    after (opsIdx (F := F)) V (Proc.devRef .tc main_v40) = batchCol (F := F) := by
  after_results_simp
  try simp only [TRef.ofBuf, TRef.toBuf, cast_eq]
  rfl

set_option maxRecDepth 8192 in
set_option maxHeartbeats 4000000 in
/-- After the second stretch the slot column is `rowCol` of the kept maxima it started from. -/
theorem after_opsIdx_v41 :
    after (opsIdx (F := F)) V (Proc.devRef .tc main_v41) = rowCol (F := F) (V (Proc.devRef .tc main_v23)) := by
  after_results_simp
  try simp only [TRef.ofBuf, TRef.toBuf, cast_eq]
  rfl

set_option maxRecDepth 8192 in
/-- The second stretch leaves the spikes alone. -/
theorem after_opsIdx_arg0 :
    after (opsIdx (F := F)) V (Proc.devRef .tc main_arg0) = V (Proc.devRef .tc main_arg0) := by
  after_results_simp

set_option maxRecDepth 8192 in
set_option maxHeartbeats 4000000 in
/-- After the third stretch the result is `picked` of the spikes, the flag and the two columns it started from. -/
theorem after_opsPick_v45 :
    after (opsPick (F := F)) V (Proc.devRef .tc main_v45)
      = picked (F := F) (V (Proc.devRef .tc main_arg0)) (V (Proc.devRef .tc main_v25)) (V (Proc.devRef .tc main_v40)) (V (Proc.devRef .tc main_v41)) := by
  after_results_simp
  try simp only [TRef.ofBuf, TRef.toBuf, cast_eq]
  rfl

end Stretches

set_option maxRecDepth 65536 in
set_option maxHeartbeats 4000000 in
/-- The three stretches in a row: the result buffer after the whole line, as the stages of the launch contents. -/
theorem after_ops_v45 (V : Valuation τ sig (Elt F)) :
    after (ops (F := F)) V (Proc.devRef .tc main_v45)
      = picked (F := F) (V (Proc.devRef .tc main_arg0)) (written (segKept (V (Proc.devRef .tc main_arg1)))) batchCol
          (rowCol (segKept (V (Proc.devRef .tc main_arg1)))) := by
  rw [ops_cut, StableHlo.after_append, StableHlo.after_append, after_opsPick_v45, after_opsIdx_v25, after_opsIdx_v40,
    after_opsIdx_v41, after_opsIdx_arg0, after_opsSeg_v23, after_opsSeg_arg0] <;> rfl

set_option maxRecDepth 65536 in
set_option maxHeartbeats 4000000 in
/-- The stages, written out, are the composed term `res_main_v45`: the same text, the kept segment maxima in their four places. -/
theorem stages_eq (m : (ℓ : Loc nD τ sig) → Buf (Elt F) ℓ) (c : Dev nD) :
    picked (F := F) (launchContents m c (Proc.devRef .tc main_arg0)) (written (segKept (launchContents m c (Proc.devRef .tc main_arg1)))) batchCol
        (rowCol (segKept (launchContents m c (Proc.devRef .tc main_arg1))))
      = res_main_v45 m c := by
  unfold res_main_v45 picked written batchCol rowCol segKept
  rfl

set_option maxRecDepth 65536 in
set_option maxHeartbeats 27200000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = res_main_v45 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v45).trans (by exact (after_ops_v45 (launchContents m c)).trans (stages_eq m c)), (h c main_arg0).trans (by after_results_simp <;> rfl), (h c main_arg1).trans (by after_results_simp <;> rfl)⟩) (run_seq scopedRefs_eq scopedSems_eq defs main (fun _ => ops) main_eq (fun _ => ops_sub) m ρ)

end Cert.ReferenceIdeal.Value

end
-- ==== Proof.LibWordMax.lean ====
/-
  SIGNED MAXIMA OF WORDS, READ AS INTEGERS. The signed maximum of two words reads signed as the larger of their signed
  readings; hence a fold of the signed maximum over a finite family lies below an integer bound exactly when the start
  value and every member do. A host `stablehlo.scatter` whose body is the signed maximum is, position by position, such
  a fold over the updates that land there: it lies below a bound exactly when the operand's element and every update
  landing on the position do.
-/
import Idealize.ShloMosaic.PureOps.Reduce
import Idealize.ShloMosaic.PureOps.ShapeOps
import Idealize.ShloMosaic.Lib.WordArith

namespace Idealize.ShloMosaic.WordMax

open Idealize.ShloMosaic

/-- The signed maximum reads signed as the maximum of the signed readings. -/
theorem toInt_maxsi {w : Nat} (x y : BitVec w) : (IntOp.maxsi x y).toInt = max x.toInt y.toInt := by
  simp only [IntOp.maxsi, BitVec.slt, decide_eq_true_eq]
  split_ifs with h
  · exact (max_eq_left (le_of_lt h)).symm
  · exact (max_eq_right (not_lt.mp h)).symm

/-- The signed minimum reads signed as the minimum of the signed readings. -/
theorem toInt_minsi {w : Nat} (x y : BitVec w) : (IntOp.minsi x y).toInt = min x.toInt y.toInt := by
  simp only [IntOp.minsi, BitVec.slt, decide_eq_true_eq]
  split_ifs with h
  · exact (min_eq_left (le_of_lt h)).symm
  · exact (min_eq_right (not_lt.mp h)).symm

/-- A fold of the signed maximum over a finite family is below `z` exactly when its start and every member are. -/
theorem fold_maxsi_toInt_le {ι : Type} {w : Nat} (s : Finset ι) (init : BitVec w) (g : ι → BitVec w) (z : Int) :
    (s.fold IntOp.maxsi init g).toInt ≤ z ↔ init.toInt ≤ z ∧ ∀ i ∈ s, (g i).toInt ≤ z := by
  classical
  induction s using Finset.induction_on with
  | empty => simp
  | insert a s ha ih =>
    -- one more member `a`: the fold is the maximum of `g a` and the fold over the rest
    rw [Finset.fold_insert ha, toInt_maxsi, max_le_iff, ih]
    simp only [Finset.mem_insert, forall_eq_or_imp]
    tauto

/-- A property `P` of the accumulator that each step of a left fold keeps exactly when the step's element has `Q`
    holds of the fold's result exactly when it holds of the start and every element of the list has `Q`. -/
private theorem foldl_iff_of_step {α β : Type _} (step : β → α → β) (P : β → Prop) (Q : α → Prop)
    (hstep : ∀ r n, P (step r n) ↔ P r ∧ Q n) (l : List α) (r : β) :
    P (l.foldl step r) ↔ P r ∧ ∀ n ∈ l, Q n := by
  induction l generalizing r with
  | nil => simp
  | cons n l ih =>
    rw [List.foldl_cons, ih, hstep]
    simp only [List.mem_cons, forall_eq_or_imp, and_assoc]

/-- A scatter with the signed maximum as its body, read at operand position `p`, is below `z` exactly when the
    operand's element there is and every update whose result index is `p` is. -/
theorem scatter_maxsi_toInt_le {s si u : Shape} {w wi : Nat} (d : ScatterDims s si u) (x : s.Idx → BitVec w)
    (idx : IVec si wi) (upd : u.Idx → BitVec w) (p : s.Idx) (z : Int) :
    (Host.scatter d IntOp.maxsi x idx upd p).toInt ≤ z
      ↔ (x p).toInt ≤ z ∧ ∀ j : u.Idx, d.resultIdx? j idx = some p → (upd j).toInt ≤ z := by
  unfold Host.scatter
  -- the scatter is a left fold over the update positions in row-major order; being below `z` at `p` is kept by a
  -- step exactly when the step's update does not land on `p` or is itself below `z`
  refine (foldl_iff_of_step _ (fun r : s.Idx → BitVec w => (r p).toInt ≤ z)
    (fun n => d.resultIdx? (u.rowMajor.symm n) idx = some p → (upd (u.rowMajor.symm n)).toInt ≤ z) ?_ _ x).trans ?_
  · intro r n
    -- the step looks at where the update lands: nowhere, on `p`, or on another position
    cases hri : d.resultIdx? (u.rowMajor.symm n) idx with
    | none => simp
    | some i =>
      by_cases hp : p = i
      · subst hp
        simp [toInt_maxsi, max_le_iff]
      · have hne : ¬ i = p := fun e => hp e.symm
        simp [hp, hne]
  · -- every update position is the row-major image of its index
    refine and_congr_right fun _ => ⟨fun h j hj => ?_, fun h n _ => h _⟩
    have hn := h (u.rowMajor j) (List.mem_finRange _)
    rw [Equiv.symm_apply_apply] at hn
    exact hn hj

end Idealize.ShloMosaic.WordMax
-- ==== Proof.LastWriter.lean ====
/-
  THE LAST WRITER OF A TIME SLOT. Source slot `t` of batch `b` is sent to slot `t + shift[b, t]` (32-bit wrapping
  sum); the move counts when its target lies in [0, 128). For an output slot `tout` the LAST WRITER is the largest
  source slot whose move counts and lands on `tout`; a slot nobody lands on stays zero.
  Two programs name the last writer differently. One takes, over all source slots, the signed maximum of
  "the slot if it lands on `tout`, else −1" (so an empty slot reads −1). The other sends every source slot to segment
  `129·b + target` (target 128 when the move does not count) and takes a segment maximum from INT_MIN (so an empty slot
  reads INT_MIN). Both readings agree once capped below by −1, and that cap is all the rest of either program looks at:
  the test "is it ≥ 0" and the clip into [0, 127].
  The selected row is then read either directly, or as the product of a 0/1 one-hot row with the block of rows: the sum
  has one term that is not zero.
-/
import Idealize.ShloMosaic.PureOps.Ideal
import Idealize.ShloMosaic.Lib.ValueIdx
import Idealize.ShloMosaic.Lib.WordArith
import Idealize.ShloMosaic.Lib.StableHlo.Predicate
import proofs.«418776_j65687229825160_1_alg».proof.Proof.LibWordMax

noncomputable section

open scoped BigOperators

namespace Cert.LastWriter

open Idealize.ShloMosaic Idealize.ShloMosaic.ValueIdx

/-- The shifts, one per (batch, source slot). -/
abbrev Shifts := (⟨2, ![64, 128]⟩ : Shape).Idx → BitVec 32
/-- The spike tensor at the ideal values. -/
abbrev Spikes := (⟨3, ![64, 128, 8192]⟩ : Shape).Idx → EReal

/-- Where source slot `t` of batch `b` is sent: the wrapping sum of the slot and its shift. -/
def target (sh : Shifts) (b : Fin 64) (t : Fin 128) : BitVec 32 :=
  IntOp.addi (BitVec.ofNat 32 t.val) (sh (ix2 b t))

/-- The move counts: its target, read signed, lies in [0, 128). -/
def inRange (v : BitVec 32) : BitVec 1 :=
  IntOp.andi (IntOp.cmpi .sge v 0#32) (IntOp.cmpi .slt v 128#32)

/-- Source slot `tin` lands on output slot `tout`. -/
def Hits (sh : Shifts) (b : Fin 64) (tin tout : Fin 128) : Prop :=
  inRange (target sh b tin) = 1#1 ∧ target sh b tin = BitVec.ofNat 32 tout.val

/-- The first program's candidate: the source slot if it lands on `tout`, else −1. -/
def cand (sh : Shifts) (b : Fin 64) (tin tout : Fin 128) : BitVec 32 :=
  Scalar.select (IntOp.andi (IntOp.cmpi .eq (target sh b tin) (BitVec.ofNat 32 tout.val)) (inRange (target sh b tin)))
    (BitVec.ofNat 32 tin.val) 4294967295#32

/-- The first program's last writer: the signed maximum of the candidates, from INT_MIN. -/
def srcK (sh : Shifts) (b : Fin 64) (tout : Fin 128) : BitVec 32 :=
  (Finset.univ : Finset (Fin 128)).fold IntOp.maxsi 2147483648#32 (fun tin => cand sh b tin tout)

/-- The second program's segment of source slot `t`: `129·b + target`, target 128 when the move does not count. -/
def seg (sh : Shifts) (b : Fin 64) (t : Fin 128) : BitVec 32 :=
  IntOp.addi (IntOp.muli (BitVec.ofNat 32 b.val) 129#32)
    (Scalar.select (inRange (target sh b t)) (target sh b t) 128#32)

/-- A last-writer word clipped into [0, 127], as a row number. -/
def clipIdx (v : BitVec 32) : Fin 128 := ⟨min v.toInt.toNat 127, by omega⟩

/-- One entry of the 0/1 selection row built from a last-writer word `v`: 1 at the clipped slot when `v ≥ 0`, else 0. -/
def onehot (v : BitVec 32) (k : Fin 128) : EReal :=
  FloatOps.mulf (F := Ideal) (φ := .f32)
    (FloatOps.uitofp (F := Ideal) .f32 (IntOp.cmpi .eq (IntOp.minsi 127#32 (IntOp.maxsi 0#32 v)) (BitVec.ofNat 32 k.val)))
    (FloatOps.uitofp (F := Ideal) .f32 (IntOp.cmpi .sge v 0#32))

/-- The row a last-writer word selects: the clipped row when the word is not negative, else zero. -/
def pick (v : BitVec 32) (X : Fin 128 → EReal) : EReal := if 0 ≤ v.toInt then X (clipIdx v) else 0

/-- THE RESULT: output slot `tout` of batch `b` holds its last writer's row, or zero. -/
def G (sh : Shifts) (x : Spikes) : Spikes := fun i =>
  pick (srcK sh ⟨(i 0).val, (i 0).isLt⟩ ⟨(i 1).val, (i 1).isLt⟩)
    (fun k => x (ix3 ⟨(i 0).val, (i 0).isLt⟩ k ⟨(i 2).val, (i 2).isLt⟩))

theorem G_apply (sh : Shifts) (x : Spikes) (b : Fin 64) (tout : Fin 128) (n : Fin 8192) :
    G sh x (ix3 b tout n) = pick (srcK sh b tout) (fun k => x (ix3 b k n)) := rfl

/-! ## Word facts -/

theorem toInt_zero32 : (0#32 : BitVec 32).toInt = 0 := by decide
theorem toInt_128 : (128#32 : BitVec 32).toInt = 128 := by decide
theorem toInt_127 : (127#32 : BitVec 32).toInt = 127 := by decide
theorem toInt_neg_one : (4294967295#32 : BitVec 32).toInt = -1 := by decide
theorem toInt_intMin : (2147483648#32 : BitVec 32).toInt = -2147483648 := by decide

/-- A slot number, as a word, reads signed as itself. -/
theorem toInt_slot (t : Fin 128) : (BitVec.ofNat 32 t.val).toInt = (t.val : Int) :=
  WordArith.toInt_ofNat_small t.val (by have := t.isLt; omega)

/-- The move counts exactly when its target reads signed in [0, 128). -/
theorem inRange_eq_one_iff (v : BitVec 32) : inRange v = 1#1 ↔ 0 ≤ v.toInt ∧ v.toInt < 128 := by
  unfold inRange
  simp only [IntOp.cmpi]
  rw [WordArith.andi_ofBool, WordArith.ofBool_eq_one_iff]
  simp only [BitVec.sle, BitVec.slt, Bool.and_eq_true, decide_eq_true_eq, toInt_zero32, toInt_128]

/-- A one-bit word is 0 or 1. -/
theorem bit_cases (c : BitVec 1) : c = 0#1 ∨ c = 1#1 := by
  revert c; decide

/-- The conjunction of two one-bit words is 1 exactly when both are. -/
theorem andi_eq_one_iff (p q : BitVec 1) : IntOp.andi p q = 1#1 ↔ p = 1#1 ∧ q = 1#1 := by
  revert p q; decide

/-- The candidate reads signed as the source slot when it lands on `tout`, else as −1. -/
theorem cand_toInt (sh : Shifts) (b : Fin 64) (tin tout : Fin 128) [Decidable (Hits sh b tin tout)] :
    (cand sh b tin tout).toInt = if Hits sh b tin tout then (tin.val : Int) else -1 := by
  unfold cand Scalar.select
  have hc : (IntOp.andi (IntOp.cmpi .eq (target sh b tin) (BitVec.ofNat 32 tout.val)) (inRange (target sh b tin)) = 1)
      ↔ Hits sh b tin tout := by
    show (IntOp.andi _ _ = 1#1) ↔ _
    rw [andi_eq_one_iff, StableHlo.Predicate.cmpi_eq_iff]
    exact and_comm
  by_cases h : Hits sh b tin tout
  · rw [if_pos (hc.2 h), if_pos h, toInt_slot]
  · rw [if_neg (fun h' => h (hc.1 h')), if_neg h, toInt_neg_one]

/-! ## The one-hot row -/

/-- At the ideal values a one-bit word converts to 1 when it is set and to 0 when it is clear. -/
theorem uitofp_bit (c : BitVec 1) :
    FloatOps.uitofp (F := Ideal) .f32 c = if c = 1#1 then (1 : EReal) else 0 := by
  rcases bit_cases c with rfl | rfl
  · rw [if_neg (by decide)]
    show (((0#1 : BitVec 1).toNat : ℝ) : EReal) = 0
    simp
  · rw [if_pos rfl]
    show (((1#1 : BitVec 1).toNat : ℝ) : EReal) = 1
    simp

/-- The test "is it ≥ 0" holds exactly when the word reads signed as a non-negative integer. -/
theorem sge_zero_eq_one_iff (v : BitVec 32) : IntOp.cmpi .sge v 0#32 = 1#1 ↔ 0 ≤ v.toInt := by
  simp only [IntOp.cmpi]
  rw [WordArith.ofBool_eq_one_iff]
  simp only [BitVec.sle, decide_eq_true_eq, toInt_zero32]

/-- A word clipped into [0, 127] is the word of its row number: read signed it is `min 127 (max 0 v)`. -/
theorem clip_eq_ofNat (v : BitVec 32) :
    IntOp.minsi 127#32 (IntOp.maxsi 0#32 v) = BitVec.ofNat 32 (clipIdx v).val := by
  apply BitVec.eq_of_toInt_eq
  rw [WordMax.toInt_minsi, WordMax.toInt_maxsi, toInt_slot, toInt_127, toInt_zero32]
  show min 127 (max 0 v.toInt) = ((min v.toInt.toNat 127 : Nat) : Int)
  omega

/-- The clipped word is the word of slot `k` exactly when `k` is the clipped row: slot words are distinct. -/
theorem clip_cmp_eq_one_iff (v : BitVec 32) (k : Fin 128) :
    IntOp.cmpi .eq (IntOp.minsi 127#32 (IntOp.maxsi 0#32 v)) (BitVec.ofNat 32 k.val) = 1#1 ↔ k = clipIdx v := by
  rw [StableHlo.Predicate.cmpi_eq_iff, clip_eq_ofNat]
  constructor
  · intro h
    have h' := congrArg BitVec.toInt h
    rw [toInt_slot, toInt_slot] at h'
    exact Fin.ext (by exact_mod_cast h'.symm)
  · rintro rfl; rfl

/-- An entry of the one-hot row is the product of two 0/1 factors: "is `k` the clipped row" and "is the word ≥ 0". -/
theorem onehot_eq (v : BitVec 32) (k : Fin 128) :
    onehot v k = (if k = clipIdx v then (1 : EReal) else 0) * (if 0 ≤ v.toInt then (1 : EReal) else 0) := by
  unfold onehot
  rw [Ideal.mulf_def, uitofp_bit, uitofp_bit]
  simp only [clip_cmp_eq_one_iff, sge_zero_eq_one_iff]

/-- The product of the one-hot row with a column picks one entry: every other term of the sum is `0 · x`. -/
theorem sum_onehot (v : BitVec 32) (X : Fin 128 → EReal) :
    ∑ k : Fin 128, onehot v k * X k = pick v X := by
  unfold pick
  by_cases hv : 0 ≤ v.toInt
  · -- the word is not negative: the term at the clipped row is `1 · 1 · x`, every other term is `0 · 1 · x`
    rw [if_pos hv, Finset.sum_eq_single (clipIdx v)]
    · rw [onehot_eq, if_pos rfl, if_pos hv, one_mul, one_mul]
    · intro k _ hk
      rw [onehot_eq, if_neg hk, zero_mul, zero_mul]
    · intro h
      exact absurd (Finset.mem_univ _) h
  · -- the word is negative: every term is `(_ · 0) · x`
    rw [if_neg hv]
    refine Finset.sum_eq_zero fun k _ => ?_
    rw [onehot_eq, if_neg hv, mul_zero, zero_mul]

/-- Words with the same cap select the same row. -/
theorem pick_congr (v v' : BitVec 32) (h : max v.toInt (-1) = max v'.toInt (-1)) (X : Fin 128 → EReal) :
    pick v X = pick v' X := by
  unfold pick
  by_cases hv : 0 ≤ v.toInt
  · -- both caps are the words' own readings, so the readings agree and so do the clipped rows
    have hv' : 0 ≤ v'.toInt := by omega
    have he : v.toInt = v'.toInt := by omega
    have hc : clipIdx v = clipIdx v' := by
      apply Fin.ext
      show min v.toInt.toNat 127 = min v'.toInt.toNat 127
      rw [he]
    rw [if_pos hv, if_pos hv', hc]
  · -- both caps are −1: both words are negative and both rows are zero
    have hv' : ¬ 0 ≤ v'.toInt := by omega
    rw [if_neg hv, if_neg hv']

end Cert.LastWriter

end
-- ==== Proof.LastWriterSegments.lean ====
/-
  THE TWO READINGS OF THE LAST WRITER AGREE ONCE CAPPED BELOW BY −1. Source slot `t` of batch `b'` is sent to segment
  `129·b' + target`, where the target is the landing slot in [0, 128) when the move counts and 128 when it does not; no
  wrap occurs (the largest segment is 129·63 + 128 = 8255). So segment `129·b + tout` with `tout < 128` collects exactly
  the source slots of batch `b` that land on `tout`. A word that is below an integer bound exactly when INT_MIN is and
  every member of that segment is, is INT_MIN on an empty segment and the largest member otherwise; the signed maximum of
  "the slot if it lands on `tout`, else −1" from INT_MIN is −1 on an empty segment and the same largest member otherwise.
  Capped below by −1 the two coincide.
-/
import proofs.«418776_j65687229825160_1_alg».proof.Proof.LastWriter

noncomputable section

namespace Cert.LastWriter

open Idealize.ShloMosaic Idealize.ShloMosaic.ValueIdx

/-- The word a source slot adds to its batch's base segment reads signed as the landing slot when the move counts,
    and as 128 when it does not. -/
theorem sel_toInt (sh : Shifts) (b' : Fin 64) (t : Fin 128) :
    (Scalar.select (inRange (target sh b' t)) (target sh b' t) 128#32).toInt
      = if inRange (target sh b' t) = 1#1 then (target sh b' t).toInt else 128 := by
  unfold Scalar.select
  by_cases hin : inRange (target sh b' t) = 1#1
  · have hin' : inRange (target sh b' t) = 1 := hin
    rw [if_pos hin', if_pos hin]
  · have hin' : ¬ inRange (target sh b' t) = 1 := hin
    rw [if_neg hin', if_neg hin, toInt_128]

/-- The segment of a source slot reads signed as 129·b' plus the landing slot (128 when the move does not count): the
    product is at most 129·63 and the sum at most 129·63 + 128 = 8255, so neither wraps. -/
theorem seg_toInt (sh : Shifts) (b' : Fin 64) (t : Fin 128) :
    (seg sh b' t).toInt = 129 * (b'.val : Int) +
      (if inRange (target sh b' t) = 1#1 then (target sh b' t).toInt else 128) := by
  have hbl := b'.isLt
  have hb : (BitVec.ofNat 32 b'.val).toInt = (b'.val : Int) :=
    WordArith.toInt_ofNat_small b'.val (by omega)
  have h129 : (129#32 : BitVec 32).toInt = 129 := by decide
  have hm : (BitVec.ofNat 32 b'.val * 129#32).toInt = 129 * (b'.val : Int) := by
    rw [WordArith.toInt_mul_of_bounds _ _ (by rw [hb, h129]; omega) (by rw [hb, h129]; omega), hb, h129]
    omega
  have hs := sel_toInt sh b' t
  have hbnd : 0 ≤ (Scalar.select (inRange (target sh b' t)) (target sh b' t) 128#32).toInt ∧
      (Scalar.select (inRange (target sh b' t)) (target sh b' t) 128#32).toInt ≤ 128 := by
    rw [hs]
    by_cases hin : inRange (target sh b' t) = 1#1
    · have hr := (inRange_eq_one_iff _).1 hin
      rw [if_pos hin]; omega
    · rw [if_neg hin]; omega
  unfold seg IntOp.addi IntOp.muli
  rw [WordArith.toInt_add_of_bounds _ _ (by rw [hm]; omega) (by rw [hm]; omega), hm, hs]

/-- Segment 129·b + tout with tout < 128 collects exactly the source slots of batch b that land on tout: a slot whose
    move does not count sits at offset 128 of its batch, and offsets below 129 determine the batch. -/
theorem seg_toInt_eq_iff (sh : Shifts) (b b' : Fin 64) (t tout : Fin 128) :
    (seg sh b' t).toInt = ((129 * b.val + tout.val : Nat) : Int) ↔ b' = b ∧ Hits sh b t tout := by
  have hbl := b.isLt
  have hbl' := b'.isLt
  have htl := tout.isLt
  rw [seg_toInt]
  by_cases hin : inRange (target sh b' t) = 1#1
  · have hr := (inRange_eq_one_iff _).1 hin
    rw [if_pos hin]
    constructor
    · intro h
      have hbb : b' = b := Fin.ext (by omega)
      subst hbb
      refine ⟨rfl, And.intro hin (BitVec.eq_of_toInt_eq ?_)⟩
      rw [toInt_slot]; omega
    · rintro ⟨hbb, _, htg⟩
      subst hbb
      rw [htg, toInt_slot]; omega
  · rw [if_neg hin]
    constructor
    · intro h; omega
    · rintro ⟨hbb, hin', _⟩
      subst hbb
      exact absurd hin' hin

/-- The first program's maximum lies below an integer bound exactly when INT_MIN does and every candidate does. -/
theorem srcK_toInt_le (sh : Shifts) (b : Fin 64) (tout : Fin 128) (z : Int) :
    (srcK sh b tout).toInt ≤ z ↔
      ((-2147483648 : Int) ≤ z ∧ ∀ tin : Fin 128, (cand sh b tin tout).toInt ≤ z) := by
  unfold srcK
  rw [WordMax.fold_maxsi_toInt_le, toInt_intMin]
  constructor
  · rintro ⟨h0, h⟩; exact ⟨h0, fun tin => h tin (Finset.mem_univ _)⟩
  · rintro ⟨h0, h⟩; exact ⟨h0, fun tin _ => h tin⟩

/-- If a word `v` is below an integer bound exactly when INT_MIN is and every source slot whose segment is
    `129·b + tout` is, then `v` and the first program's maximum have the same cap below by −1. -/
theorem cap_of_segments (sh : Shifts) (b : Fin 64) (tout : Fin 128) (v : BitVec 32)
    (hv : ∀ z : Int, v.toInt ≤ z ↔ ((-2147483648 : Int) ≤ z ∧
      ∀ (b' : Fin 64) (t : Fin 128), (seg sh b' t).toInt = ((129 * b.val + tout.val : Nat) : Int) → (t.val : Int) ≤ z)) :
    max v.toInt (-1) = max (srcK sh b tout).toInt (-1) := by
  classical
  have hs : ∀ z : Int, (srcK sh b tout).toInt ≤ z ↔
      ((-2147483648 : Int) ≤ z ∧ ∀ tin : Fin 128, (cand sh b tin tout).toInt ≤ z) :=
    fun z => srcK_toInt_le sh b tout z
  -- the members of segment 129·b + tout are the slots of batch b landing on tout
  have hv' : ∀ z : Int, v.toInt ≤ z ↔
      ((-2147483648 : Int) ≤ z ∧ ∀ t : Fin 128, Hits sh b t tout → (t.val : Int) ≤ z) := by
    intro z
    rw [hv z]
    constructor
    · rintro ⟨h0, h⟩
      exact ⟨h0, fun t ht => h b t ((seg_toInt_eq_iff sh b b t tout).2 ⟨rfl, ht⟩)⟩
    · rintro ⟨h0, h⟩
      refine ⟨h0, fun b' t hseg => ?_⟩
      exact h t ((seg_toInt_eq_iff sh b b' t tout).1 hseg).2
  have hmin : ∀ a : Int, (-2147483648 : Int) ≤ max a (-1) :=
    fun a => le_trans (by omega) (le_max_right a (-1))
  apply le_antisymm
  · -- every landing slot is a candidate, so it lies below the first program's maximum
    rw [max_le_iff]
    refine ⟨?_, le_max_right _ _⟩
    rw [hv']
    refine ⟨hmin _, fun t ht => ?_⟩
    have h1 := ((hs (srcK sh b tout).toInt).1 le_rfl).2 t
    rw [cand_toInt, if_pos ht] at h1
    exact le_trans h1 (le_max_left _ _)
  · -- a candidate is a landing slot, which lies below `v`, or −1, which the cap absorbs
    rw [max_le_iff]
    refine ⟨?_, le_max_right _ _⟩
    rw [hs]
    refine ⟨hmin _, fun tin => ?_⟩
    rw [cand_toInt]
    by_cases ht : Hits sh b tin tout
    · rw [if_pos ht]
      exact le_trans (((hv' v.toInt).1 le_rfl).2 tin ht) (le_max_left _ _)
    · rw [if_neg ht]; exact le_max_right _ _

end Cert.LastWriter

end
-- ==== Proof.KernelArrays.lean ====
/-
  The idealized kernel's three arrays on a core, each named at its literal type: the 0/1 selection matrix the host
  operations before the call build (one 128 × 128 matrix per batch), the spike tensor as launched, and the call's output
  after the run.
-/
import proofs.«418776_j65687229825160_1_alg».proof.Proof.Gen.KernelIdeal.Value
import Idealize.ShloMosaic.PureOps.Ideal

noncomputable section

namespace Cert.KernelIdeal.Arrays

open Cert.KernelIdeal Cert.KernelIdeal.Gen Idealize.ShloMosaic Idealize.ShloMosaic.TcCoe Idealize.SL.Sem

variable (m : (ℓ : Loc nD τ sig) → Buf (Elt Ideal) ℓ)

/-- The selection matrices, as the call finds them. -/
abbrev selArr (c : Dev nD) : S64x128x128.Idx → EReal := V m c main_v28
/-- The spike tensor, as the call finds it. -/
abbrev spikeArr (c : Dev nD) : S64x128x8192.Idx → EReal := V m c main_arg0
/-- The shifts, as launched. -/
abbrev shiftArr (c : Dev nD) : S64x128.Idx → BitVec 32 := m ((c : Thread nD τ).loc main_arg1)
/-- The call's output array after the run. -/
abbrev outArr (c : Dev nD) : S64x128x8192.Idx → EReal := (dats m 0 c).arrAt 2 cfg0.N

end Cert.KernelIdeal.Arrays

end
-- ==== Proof.SelectionMatrix.lean ====
/-
  THE SELECTION MATRIX AT AN ENTRY. The host operations before the call build, from the shifts alone, one 128 × 128 matrix
  per batch: entry (tout, k) is 1 when output slot `tout` has a last writer and `k` is that writer clipped into
  [0, 127], else 0. Read entry by entry, that is the one-hot row of the first program's last-writer word.
-/
import proofs.«418776_j65687229825160_1_alg».proof.Proof.KernelArrays
import proofs.«418776_j65687229825160_1_alg».proof.Proof.LastWriter
import Idealize.ShloMosaic.Lib.Pipeline.Value
import Idealize.ShloMosaic.Lib.StableHlo.Run
import Idealize.ShloMosaic.Lib.ValueIdx
import Idealize.ShloMosaic.PureOps.Reduce

noncomputable section

namespace Cert.KernelIdeal.SelectionMatrix

open Cert.KernelIdeal Cert.KernelIdeal.Gen Cert.KernelIdeal.Arrays Idealize.ShloMosaic Idealize.ShloMosaic.TcCoe
  Idealize.SL.Sem Idealize.ShloMosaic.ValueIdx

/-! ## The host operations as stages, each a function of the shifts -/

section Stages

variable {F : FTy → Type} [FloatOps F]

/-- The target words: the slot number on the time axis plus the shift (wrapping). -/
def tgtV (sh : IVec S64x128 32) : IVec S64x128 32 :=
  addi (broadcastInDim S64x128 ![0, 1] bcast_S1x128_S64x128_0_1
    (broadcastInDim S1x128 ![1] bcast_S128_S1x128_1 (iotaInDim S128 32 0))) sh

/-- The move counts: the target, read signed, is at least 0 and below 128. -/
def inrV (sh : IVec S64x128 32) : IVec S64x128 1 :=
  andi (cmpi .sge (tgtV sh) (broadcastInDim S64x128 ![] bcast_S_S64x128 (constantI S_ 32 0#32)))
    (cmpi .slt (tgtV sh) (broadcastInDim S64x128 ![] bcast_S_S64x128 (constantI S_ 32 128#32)))

/-- Entry (b, tin, tout): source slot `tin` lands on output slot `tout` and its move counts. -/
def hitV (sh : IVec S64x128 32) : IVec S64x128x128 1 :=
  andi
    (cmpi .eq
      (broadcastInDim S64x128x128 ![0, 1, 2] bcast_S64x128x1_S64x128x128_0_1_2
        (broadcastInDim S64x128x1 ![0, 1] bcast_S64x128_S64x128x1_0_1 (tgtV sh)))
      (broadcastInDim S64x128x128 ![0, 1, 2] bcast_S1x1x128_S64x128x128_0_1_2
        (broadcastInDim S1x1x128 ![2] bcast_S128_S1x1x128_2 (iotaInDim S128 32 0))))
    (broadcastInDim S64x128x128 ![0, 1, 2] bcast_S64x128x1_S64x128x128_0_1_2
      (broadcastInDim S64x128x1 ![0, 1] bcast_S64x128_S64x128x1_0_1 (inrV sh)))

/-- Entry (b, tin, tout): the source slot when it lands on `tout`, else −1. -/
def candV (sh : IVec S64x128 32) : IVec S64x128x128 32 :=
  select (hitV sh)
    (broadcastInDim S64x128x128 ![0, 1, 2] bcast_S1x128x1_S64x128x128_0_1_2
      (broadcastInDim S1x128x1 ![1] bcast_S128_S1x128x1_1 (iotaInDim S128 32 0)))
    (broadcastInDim S64x128x128 ![] bcast_S_S64x128x128 (constantI S_ 32 4294967295#32))

/-- Entry (b, tout): the signed maximum of the candidates over the source slots, from INT_MIN. -/
def srcV (sh : IVec S64x128 32) : IVec S64x128 32 :=
  Host.reduce IntOp.maxsi (candV sh) (constantI S_ 32 2147483648#32) reducesTo_S64x128x128_S64x128_d1 h_S_

/-- Entry (b, tout): the last-writer word is not negative. -/
def geV (sh : IVec S64x128 32) : IVec S64x128 1 :=
  cmpi .sge (srcV sh) (broadcastInDim S64x128 ![] bcast_S_S64x128 (constantI S_ 32 0#32))

/-- Entry (b, tout): the last-writer word clipped into [0, 127]. -/
def clipV (sh : IVec S64x128 32) : IVec S64x128 32 :=
  minsi (broadcastInDim S64x128 ![] bcast_S_S64x128 (id (constantI S_ 32 127#32)))
    (maxsi (broadcastInDim S64x128 ![] bcast_S_S64x128 (id (constantI S_ 32 0#32))) (srcV sh))

/-- Entry (b, tout, k): 1 when `k` is the clipped last-writer word, else 0. -/
def hotV (sh : IVec S64x128 32) : FVec F S64x128x128 .f32 :=
  uitofp .f32
    (cmpi .eq
      (broadcastInDim S64x128x128 ![0, 1, 2] bcast_S64x128x1_S64x128x128_0_1_2
        (broadcastInDim S64x128x1 ![0, 1] bcast_S64x128_S64x128x1_0_1 (clipV sh)))
      (broadcastInDim S64x128x128 ![0, 1, 2] bcast_S1x1x128_S64x128x128_0_1_2 (iotaInDim S1x1x128 32 2)))

/-- Entry (b, tout, k): 1 when the last-writer word of (b, tout) is not negative, else 0. -/
def liveV (sh : IVec S64x128 32) : FVec F S64x128x128 .f32 :=
  broadcastInDim S64x128x128 ![0, 1, 2] bcast_S64x128x1_S64x128x128_0_1_2
    (uitofp .f32 (broadcastInDim S64x128x1 ![0, 1] bcast_S64x128_S64x128x1_0_1 (geV sh)))

/-- The selection matrices: the product of the two. -/
def selV (sh : IVec S64x128 32) : FVec F S64x128x128 .f32 := mulf (hotV (F := F) sh) (liveV (F := F) sh)

/-- The selection matrices as the call finds them are the stages' composite, applied to the shifts as launched. -/
theorem V_sel_eq (m : (ℓ : Loc nD τ sig) → Buf (Elt F) ℓ) (c : Dev nD) :
    (V m c main_v28 : (⟨S64x128x128, .f32⟩ : BufTy).Contents (Elt F)) = selV (F := F) (m ((c : Thread nD τ).loc main_arg1)) := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  simp only [StableHlo.TRef.ofBuf, StableHlo.TRef.toBuf, cast_eq]
  rfl

end Stages

/-! ## The broadcasts read at an entry -/

section Broadcasts

variable {α : Type}

/-- Closes a coordinate obligation of a broadcast at literal shapes: one case per operand axis, each by computation. -/
local macro "by_axes" : tactic =>
  `(tactic| (intro a; fin_cases a <;> first | rfl | decide | simp))

/-- A scalar copied to every (batch, slot) reads the scalar. -/
theorem bc_scalar2 (x : S_.Idx → α) (j : S64x128.Idx) : broadcastInDim S64x128 ![] bcast_S_S64x128 x j = x ix0 :=
  broadcastInDim_apply _ bcast_S_S64x128 x j ix0 (fun a => a.elim0)

/-- A scalar copied to every (batch, slot, slot) reads the scalar. -/
theorem bc_scalar3 (x : S_.Idx → α) (j : S64x128x128.Idx) : broadcastInDim S64x128x128 ![] bcast_S_S64x128x128 x j = x ix0 :=
  broadcastInDim_apply _ bcast_S_S64x128x128 x j ix0 (fun a => a.elim0)

/-- A one-batch row copied to every batch reads the row. -/
theorem bc_slot_a (y : S1x128.Idx → α) (b : Fin 64) (t : Fin 128) :
    broadcastInDim S64x128 ![0, 1] bcast_S1x128_S64x128_0_1 y (ix2 b t) = y (ix2 (0 : Fin 1) t) :=
  broadcastInDim_apply _ bcast_S1x128_S64x128_0_1 y (ix2 b t) (ix2 (0 : Fin 1) t)
    (by by_axes)

/-- A vector over the slots laid along the second axis of a one-batch row reads its own entry. -/
theorem bc_slot_b (x : S128.Idx → α) (t : Fin 128) :
    broadcastInDim S1x128 ![1] bcast_S128_S1x128_1 x (ix2 (0 : Fin 1) t) = x (ix1 t) :=
  broadcastInDim_apply _ bcast_S128_S1x128_1 x (ix2 (0 : Fin 1) t) (ix1 t)
    (by by_axes)

/-- A (batch, slot, 1) array copied along its last axis reads its one entry there. -/
theorem bc_last_a (y : S64x128x1.Idx → α) (b : Fin 64) (t j : Fin 128) :
    broadcastInDim S64x128x128 ![0, 1, 2] bcast_S64x128x1_S64x128x128_0_1_2 y (ix3 b t j) = y (ix3 b t (0 : Fin 1)) :=
  broadcastInDim_apply _ bcast_S64x128x1_S64x128x128_0_1_2 y (ix3 b t j) (ix3 b t (0 : Fin 1))
    (by by_axes)

/-- A (batch, slot) array given a last axis of one entry reads its own entry. -/
theorem bc_last_b (x : S64x128.Idx → α) (b : Fin 64) (t : Fin 128) :
    broadcastInDim S64x128x1 ![0, 1] bcast_S64x128_S64x128x1_0_1 x (ix3 b t (0 : Fin 1)) = x (ix2 b t) :=
  broadcastInDim_apply _ bcast_S64x128_S64x128x1_0_1 x (ix3 b t (0 : Fin 1)) (ix2 b t)
    (by by_axes)

/-- A (batch, slot) array copied along a new last axis reads its own entry. -/
theorem bc_last (x : S64x128.Idx → α) (b : Fin 64) (t j : Fin 128) :
    broadcastInDim S64x128x128 ![0, 1, 2] bcast_S64x128x1_S64x128x128_0_1_2
      (broadcastInDim S64x128x1 ![0, 1] bcast_S64x128_S64x128x1_0_1 x) (ix3 b t j) = x (ix2 b t) :=
  (bc_last_a _ b t j).trans (bc_last_b x b t)

/-- A (1, 1, slot) array copied over batches and source slots reads its entry at the last coordinate. -/
theorem bc_out_a (y : S1x1x128.Idx → α) (b : Fin 64) (t j : Fin 128) :
    broadcastInDim S64x128x128 ![0, 1, 2] bcast_S1x1x128_S64x128x128_0_1_2 y (ix3 b t j)
      = y (ix3 (0 : Fin 1) (0 : Fin 1) j) :=
  broadcastInDim_apply _ bcast_S1x1x128_S64x128x128_0_1_2 y (ix3 b t j) (ix3 (0 : Fin 1) (0 : Fin 1) j)
    (by by_axes)

/-- A vector over the slots laid along the last axis reads its own entry. -/
theorem bc_out_b (x : S128.Idx → α) (j : Fin 128) :
    broadcastInDim S1x1x128 ![2] bcast_S128_S1x1x128_2 x (ix3 (0 : Fin 1) (0 : Fin 1) j) = x (ix1 j) :=
  broadcastInDim_apply _ bcast_S128_S1x1x128_2 x (ix3 (0 : Fin 1) (0 : Fin 1) j) (ix1 j)
    (by by_axes)

/-- A (1, slot, 1) array copied over batches and output slots reads its entry at the middle coordinate. -/
theorem bc_src_a (y : S1x128x1.Idx → α) (b : Fin 64) (t j : Fin 128) :
    broadcastInDim S64x128x128 ![0, 1, 2] bcast_S1x128x1_S64x128x128_0_1_2 y (ix3 b t j)
      = y (ix3 (0 : Fin 1) t (0 : Fin 1)) :=
  broadcastInDim_apply _ bcast_S1x128x1_S64x128x128_0_1_2 y (ix3 b t j) (ix3 (0 : Fin 1) t (0 : Fin 1))
    (by by_axes)

/-- A vector over the slots laid along the middle axis reads its own entry. -/
theorem bc_src_b (x : S128.Idx → α) (t : Fin 128) :
    broadcastInDim S1x128x1 ![1] bcast_S128_S1x128x1_1 x (ix3 (0 : Fin 1) t (0 : Fin 1)) = x (ix1 t) :=
  broadcastInDim_apply _ bcast_S128_S1x128x1_1 x (ix3 (0 : Fin 1) t (0 : Fin 1)) (ix1 t)
    (by by_axes)

end Broadcasts

/-! ## The stages read at an entry -/

section Entries

open Cert.LastWriter (target inRange cand srcK onehot)

variable (sh : IVec S64x128 32)

/-- The target word of (b, t) is the slot plus its shift. -/
theorem tgtV_apply (b : Fin 64) (t : Fin 128) : tgtV sh (ix2 b t) = target sh b t := by
  show IntOp.addi
      (broadcastInDim S64x128 ![0, 1] bcast_S1x128_S64x128_0_1
        (broadcastInDim S1x128 ![1] bcast_S128_S1x128_1 (iotaInDim S128 32 0)) (ix2 b t))
      (sh (ix2 b t)) = _
  rw [bc_slot_a, bc_slot_b]
  all_goals rfl

/-- The range test of (b, t) is the range test of its target word. -/
theorem inrV_apply (b : Fin 64) (t : Fin 128) : inrV sh (ix2 b t) = inRange (target sh b t) := by
  show IntOp.andi
      (IntOp.cmpi .sge (tgtV sh (ix2 b t))
        (broadcastInDim S64x128 ![] bcast_S_S64x128 (constantI S_ 32 0#32) (ix2 b t)))
      (IntOp.cmpi .slt (tgtV sh (ix2 b t))
        (broadcastInDim S64x128 ![] bcast_S_S64x128 (constantI S_ 32 128#32) (ix2 b t))) = _
  rw [tgtV_apply, bc_scalar2, bc_scalar2]
  all_goals rfl

/-- Entry (b, tin, tout) of the hit mask: the target of the source slot is the output slot and the move counts. -/
theorem hitV_apply (b : Fin 64) (tin tout : Fin 128) :
    hitV sh (ix3 b tin tout)
      = IntOp.andi (IntOp.cmpi .eq (target sh b tin) (BitVec.ofNat 32 tout.val)) (inRange (target sh b tin)) := by
  show IntOp.andi
      (IntOp.cmpi .eq
        (broadcastInDim S64x128x128 ![0, 1, 2] bcast_S64x128x1_S64x128x128_0_1_2
          (broadcastInDim S64x128x1 ![0, 1] bcast_S64x128_S64x128x1_0_1 (tgtV sh)) (ix3 b tin tout))
        (broadcastInDim S64x128x128 ![0, 1, 2] bcast_S1x1x128_S64x128x128_0_1_2
          (broadcastInDim S1x1x128 ![2] bcast_S128_S1x1x128_2 (iotaInDim S128 32 0)) (ix3 b tin tout)))
      (broadcastInDim S64x128x128 ![0, 1, 2] bcast_S64x128x1_S64x128x128_0_1_2
        (broadcastInDim S64x128x1 ![0, 1] bcast_S64x128_S64x128x1_0_1 (inrV sh)) (ix3 b tin tout)) = _
  rw [bc_last, bc_last, bc_out_a, bc_out_b, tgtV_apply, inrV_apply]
  all_goals rfl

/-- Entry (b, tin, tout) of the candidates is the first program's candidate. -/
theorem candV_apply (b : Fin 64) (tin tout : Fin 128) : candV sh (ix3 b tin tout) = cand sh b tin tout := by
  show Scalar.select (hitV sh (ix3 b tin tout))
      (broadcastInDim S64x128x128 ![0, 1, 2] bcast_S1x128x1_S64x128x128_0_1_2
        (broadcastInDim S1x128x1 ![1] bcast_S128_S1x128x1_1 (iotaInDim S128 32 0)) (ix3 b tin tout))
      (broadcastInDim S64x128x128 ![] bcast_S_S64x128x128 (constantI S_ 32 4294967295#32) (ix3 b tin tout)) = _
  rw [hitV_apply, bc_src_a, bc_src_b, bc_scalar3]
  all_goals rfl

/-- Inserting a source slot at the middle of (b, tout) gives (b, tin, tout). -/
theorem lift_mid (h : S64x128x128.Reduces [1] S64x128) (b : Fin 64) (tin tout : Fin 128) :
    h.lift (ix2 b tout) tin = ix3 b tin tout := by
  funext a
  apply Fin.ext
  fin_cases a <;> first | rfl | simp [Shape.Reduces.lift_val, Shape.Reduces.liftVal]

/-- Entry (b, tout) of the reduced array is the first program's last-writer word. -/
theorem srcV_apply (b : Fin 64) (tout : Fin 128) : srcV sh (ix2 b tout) = srcK sh b tout := by
  have h : S64x128x128.Reduces [1] S64x128 := by decide
  unfold srcV
  rw [Host.reduce_eq_fold_single IntOp.maxsi (candV sh) _ reducesTo_S64x128x128_S64x128_d1 h h_S_ (ix2 b tout)]
  show (Finset.univ : Finset (Fin 128)).fold IntOp.maxsi 2147483648#32 (candV sh ∘ h.lift (ix2 b tout))
      = (Finset.univ : Finset (Fin 128)).fold IntOp.maxsi 2147483648#32 (fun tin => cand sh b tin tout)
  have hf : (candV sh ∘ h.lift (ix2 b tout)) = fun tin : Fin 128 => cand sh b tin tout :=
    funext fun tin => (congrArg (candV sh) (lift_mid h b tin tout)).trans (candV_apply sh b tin tout)
  exact congrArg (fun f : Fin 128 → BitVec 32 => (Finset.univ : Finset (Fin 128)).fold IntOp.maxsi 2147483648#32 f) hf

/-- Entry (b, tout) of the sign test. -/
theorem geV_apply (b : Fin 64) (tout : Fin 128) : geV sh (ix2 b tout) = IntOp.cmpi .sge (srcK sh b tout) 0#32 := by
  show IntOp.cmpi .sge (srcV sh (ix2 b tout))
      (broadcastInDim S64x128 ![] bcast_S_S64x128 (constantI S_ 32 0#32) (ix2 b tout)) = _
  rw [srcV_apply, bc_scalar2]
  all_goals rfl

/-- Entry (b, tout) of the clipped word. -/
theorem clipV_apply (b : Fin 64) (tout : Fin 128) :
    clipV sh (ix2 b tout) = IntOp.minsi 127#32 (IntOp.maxsi 0#32 (srcK sh b tout)) := by
  show IntOp.minsi (broadcastInDim S64x128 ![] bcast_S_S64x128 (id (constantI S_ 32 127#32)) (ix2 b tout))
      (IntOp.maxsi (broadcastInDim S64x128 ![] bcast_S_S64x128 (id (constantI S_ 32 0#32)) (ix2 b tout))
        (srcV sh (ix2 b tout))) = _
  rw [srcV_apply, bc_scalar2, bc_scalar2]
  all_goals rfl

variable {F : FTy → Type} [FloatOps F]

/-- Entry (b, tout, k) of the one-hot array. -/
theorem hotV_apply (b : Fin 64) (tout k : Fin 128) :
    hotV (F := F) sh (ix3 b tout k)
      = FloatOps.uitofp (F := F) .f32
          (IntOp.cmpi .eq (IntOp.minsi 127#32 (IntOp.maxsi 0#32 (srcK sh b tout))) (BitVec.ofNat 32 k.val)) := by
  show FloatOps.uitofp (F := F) .f32
      (IntOp.cmpi .eq
        (broadcastInDim S64x128x128 ![0, 1, 2] bcast_S64x128x1_S64x128x128_0_1_2
          (broadcastInDim S64x128x1 ![0, 1] bcast_S64x128_S64x128x1_0_1 (clipV sh)) (ix3 b tout k))
        (broadcastInDim S64x128x128 ![0, 1, 2] bcast_S1x1x128_S64x128x128_0_1_2 (iotaInDim S1x1x128 32 2)
          (ix3 b tout k))) = _
  rw [bc_last, bc_out_a, clipV_apply]
  all_goals rfl

/-- Entry (b, tout, k) of the liveness array. -/
theorem liveV_apply (b : Fin 64) (tout k : Fin 128) :
    liveV (F := F) sh (ix3 b tout k) = FloatOps.uitofp (F := F) .f32 (IntOp.cmpi .sge (srcK sh b tout) 0#32) := by
  show broadcastInDim S64x128x128 ![0, 1, 2] bcast_S64x128x1_S64x128x128_0_1_2
      (uitofp (F := F) .f32 (broadcastInDim S64x128x1 ![0, 1] bcast_S64x128_S64x128x1_0_1 (geV sh))) (ix3 b tout k) = _
  rw [bc_last_a]
  show FloatOps.uitofp (F := F) .f32
      (broadcastInDim S64x128x1 ![0, 1] bcast_S64x128_S64x128x1_0_1 (geV sh) (ix3 b tout (0 : Fin 1))) = _
  rw [bc_last_b, geV_apply]

/-- Entry (b, tout, k) of the selection matrices. -/
theorem selV_apply (b : Fin 64) (tout k : Fin 128) :
    selV (F := F) sh (ix3 b tout k)
      = FloatOps.mulf (F := F) (φ := .f32)
          (FloatOps.uitofp (F := F) .f32
            (IntOp.cmpi .eq (IntOp.minsi 127#32 (IntOp.maxsi 0#32 (srcK sh b tout))) (BitVec.ofNat 32 k.val)))
          (FloatOps.uitofp (F := F) .f32 (IntOp.cmpi .sge (srcK sh b tout) 0#32)) := by
  show FloatOps.mulf (F := F) (φ := .f32) (hotV (F := F) sh (ix3 b tout k)) (liveV (F := F) sh (ix3 b tout k)) = _
  rw [hotV_apply, liveV_apply]

end Entries

variable (m : (ℓ : Loc nD τ sig) → Buf (Elt Ideal) ℓ)

/-- Entry (tout, k) of batch `b`'s selection matrix is the one-hot row of the last-writer word of (b, tout). -/
theorem sel_apply (c : Dev nD) (b : Fin 64) (tout k : Fin 128) :
    selArr m c (ix3 b tout k) = Cert.LastWriter.onehot (Cert.LastWriter.srcK (shiftArr m c) b tout) k := by
  have e : (V m c main_v28 : (⟨S64x128x128, .f32⟩ : BufTy).Contents (Elt Ideal)) (ix3 b tout k)
      = selV (F := Ideal) (shiftArr m c) (ix3 b tout k) := congrFun (V_sel_eq (F := Ideal) m c) (ix3 b tout k)
  exact e.trans (selV_apply (F := Ideal) (shiftArr m c) b tout k)

end Cert.KernelIdeal.SelectionMatrix

end
-- ==== Proof.GatherMatmul.lean ====
/-
  THE CALL'S OUTPUT AT AN ENTRY. Grid point `b` multiplies batch `b`'s 128 × 128 selection matrix into batch `b`'s
  128 × 8192 block of spikes (a matmul into a zero accumulator; the changes of float format are the identity at the ideal
  values) and writes the product back as block `b` of the output. The 64 blocks tile the output, so entry (b, t, n) of the
  output after the run is the sum over k of sel[b, t, k] · x[b, k, n].
-/
import proofs.«418776_j65687229825160_1_alg».proof.Proof.KernelArrays
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.GatherMatmul

open Cert.KernelIdeal Cert.KernelIdeal.Gen Cert.KernelIdeal.Value Cert.KernelIdeal.Arrays Idealize.ShloMosaic
  Idealize.ShloMosaic.TcCoe Idealize.SL.Sem Idealize.ShloMosaic.ValueIdx

/-! ## The batched product, as one function of the two arrays -/

/-- Entry (b, t, n) of the batched product: row `t` of batch `b`'s matrix times column `n` of batch `b`'s block. -/
def prod (sel : S64x128x128.Idx → EReal) (x : S64x128x8192.Idx → EReal) : S64x128x8192.Idx → EReal := fun i =>
  ∑ k : Fin 128, sel (ix3 ⟨(i 0).val, (i 0).isLt⟩ ⟨(i 1).val, (i 1).isLt⟩ k)
    * x (ix3 ⟨(i 0).val, (i 0).isLt⟩ k ⟨(i 2).val, (i 2).isLt⟩)

theorem prod_apply (sel : S64x128x128.Idx → EReal) (x : S64x128x8192.Idx → EReal) (b : Fin 64) (t : Fin 128)
    (n : Fin 8192) : prod sel x (ix3 b t n) = ∑ k : Fin 128, sel (ix3 b t k) * x (ix3 b k n) := rfl

/-- An index of the spike tensor's shape is fixed by its three coordinates. -/
theorem idx_spikes (i : S64x128x8192.Idx) (b : Fin 64) (t : Fin 128) (n : Fin 8192) (h0 : (i 0).val = b.val)
    (h1 : (i 1).val = t.val) (h2 : (i 2).val = n.val) : i = ix3 b t n := by
  funext a; apply Fin.ext
  match a with
  | ⟨0, _⟩ => exact h0
  | ⟨1, _⟩ => exact h1
  | ⟨2, _⟩ => exact h2

/-- An index of the selection matrices' shape is fixed by its three coordinates. -/
theorem idx_sel (i : S64x128x128.Idx) (b : Fin 64) (t : Fin 128) (k : Fin 128) (h0 : (i 0).val = b.val)
    (h1 : (i 1).val = t.val) (h2 : (i 2).val = k.val) : i = ix3 b t k := by
  funext a; apply Fin.ext
  match a with
  | ⟨0, _⟩ => exact h0
  | ⟨1, _⟩ => exact h1
  | ⟨2, _⟩ => exact h2

/-! ## The block product's operand indices -/

theorem lhs_row (i : S128x8192.Idx) (q : dot_S128x128_S128x8192_S128x8192_1_0_0_1_n_n.contr.Idx) :
    (dot_S128x128_S128x8192_S128x8192_1_0_0_1_n_n.lhsIdx i q 0).val = (i 0).val := by
  unfold DotDims.lhsIdx
  rw [dif_neg (show ¬(0 : Fin S128x128.rank) ∈ dot_S128x128_S128x8192_S128x8192_1_0_0_1_n_n.lhsBatch by decide),
    dif_pos (show (0 : Fin S128x128.rank) ∈ dot_S128x128_S128x8192_S128x8192_1_0_0_1_n_n.lhsNonContracting by decide)]
  rfl

theorem lhs_col (i : S128x8192.Idx) (q : dot_S128x128_S128x8192_S128x8192_1_0_0_1_n_n.contr.Idx) :
    (dot_S128x128_S128x8192_S128x8192_1_0_0_1_n_n.lhsIdx i q 1).val = (q ⟨0, by decide⟩).val :=
  dot_S128x128_S128x8192_S128x8192_1_0_0_1_n_n.lhsIdx_val_of_single rfl i q

theorem rhs_row (i : S128x8192.Idx) (q : dot_S128x128_S128x8192_S128x8192_1_0_0_1_n_n.contr.Idx) :
    (dot_S128x128_S128x8192_S128x8192_1_0_0_1_n_n.rhsIdx i q 0).val = (q ⟨0, by decide⟩).val :=
  dot_S128x128_S128x8192_S128x8192_1_0_0_1_n_n.rhsIdx_val_of_single rfl i q

theorem rhs_col (i : S128x8192.Idx) (q : dot_S128x128_S128x8192_S128x8192_1_0_0_1_n_n.contr.Idx) :
    (dot_S128x128_S128x8192_S128x8192_1_0_0_1_n_n.rhsIdx i q 1).val = (i 1).val := by
  unfold DotDims.rhsIdx
  rw [dif_neg (show ¬(1 : Fin S128x8192.rank) ∈ dot_S128x128_S128x8192_S128x8192_1_0_0_1_n_n.rhsBatch by decide),
    dif_pos (show (1 : Fin S128x8192.rank) ∈ dot_S128x128_S128x8192_S128x8192_1_0_0_1_n_n.rhsNonContracting by decide)]
  rfl

/-! ## One grid point's product -/

/-- The body's payload at an entry of the block: row `t` of the selection block times column `n` of the spike block
    (the accumulator is the zero splat, and the two changes of float format read through at the ideal values). -/
theorem pay_apply (x0 : Vec Ideal S1x128x128 .f32) (x1 : Vec Ideal S1x128x8192 .f32) (u : Fin 1) (t : Fin 128)
    (n : Fin 8192) :
    k0_pay1 (F := Ideal) x0 x1 (ix3 u t n) = ∑ k : Fin 128, x0 (ix3 (0 : Fin 1) t k) * x1 (ix3 (0 : Fin 1) k n) := by
  unfold k0_pay1
  rw [shapeCast_ab_1ab_apply]
  simp only [matmul]
  rw [Ideal.matmul_constant_zero_apply,
    ← Equiv.sum_comp (contrEquiv1 dot_S128x128_S128x8192_S128x8192_1_0_0_1_n_n 128 rfl rfl).symm]
  refine Finset.sum_congr rfl fun k _ => ?_
  have hk := contrEquiv1_symm_val dot_S128x128_S128x8192_S128x8192_1_0_0_1_n_n 128 rfl rfl k
  have el : dot_S128x128_S128x8192_S128x8192_1_0_0_1_n_n.lhsIdx (ix2 t n)
      ((contrEquiv1 dot_S128x128_S128x8192_S128x8192_1_0_0_1_n_n 128 rfl rfl).symm k) = ix2 t k :=
    funext fun a => Fin.ext (by
      match a with
      | ⟨0, _⟩ => exact lhs_row _ _
      | ⟨1, _⟩ => exact (lhs_col _ _).trans hk)
  have er : dot_S128x128_S128x8192_S128x8192_1_0_0_1_n_n.rhsIdx (ix2 t n)
      ((contrEquiv1 dot_S128x128_S128x8192_S128x8192_1_0_0_1_n_n 128 rfl rfl).symm k) = ix2 k n :=
    funext fun a => Fin.ext (by
      match a with
      | ⟨0, _⟩ => exact (rhs_row _ _).trans hk
      | ⟨1, _⟩ => exact rhs_col _ _)
  rw [el, er, truncf_apply, truncf_apply, shapeCast_1ab_ab_apply, shapeCast_1ab_ab_apply]

/-- A block of the output's shape that reads, entry by entry, as the product of two blocks is the body's payload of
    them. -/
theorem pay_eq (x0 : Vec Ideal S1x128x128 .f32) (x1 : Vec Ideal S1x128x8192 .f32) (g : S1x128x8192.Idx → EReal)
    (h : ∀ (u : Fin 1) (t : Fin 128) (n : Fin 8192),
      g (ix3 u t n) = ∑ k : Fin 128, x0 (ix3 (0 : Fin 1) t k) * x1 (ix3 (0 : Fin 1) k n)) :
    k0_pay1 (F := Ideal) x0 x1 = g := by
  funext j
  obtain ⟨u, t, n, rfl⟩ : ∃ (u : Fin 1) (t : Fin 128) (n : Fin 8192), j = ix3 u t n := ⟨j 0, j 1, j 2, eq_ix3 j⟩
  rw [pay_apply, h]

/-! ## From the blocks to the array -/

variable (m : (ℓ : Loc nD τ sig) → Buf (Elt Ideal) ℓ)

theorem zeroOffsets : (![0, 0, 0] : Fin 3 → Nat) = fun _ => 0 := funext fun a => by fin_cases a <;> rfl

/-- The printed index maps, decided over the grid: at point `t` each of the three windows is on block (t, 0, 0) of its
    array. -/
theorem blockIndex : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of the batched product of the two arrays as the call finds them. -/
theorem flushed_eq (c : Dev nD) (t : Fin cfg0.N) :
    (dats m 0 c).flushed 2 t = ((cfg0.win 2).blk t).view.read (Elt Ideal) (prod (selArr m c) (spikeArr m c)) := by
  rw [Value.flushed2]
  unfold Gen.out0_2
  rw [View.canon_unit_zero zeroOffsets]
  simp only [View.ld_unit_zero (S := S1x128x128) zeroOffsets, View.ld_unit_zero (S := S1x128x8192) zeroOffsets]
  obtain ⟨a0, a1, a2, b0, b1, b2, o0, o1, o2⟩ := blockIndex t
  have hb : t.val < 64 := lt_of_lt_of_eq t.isLt N_0
  show k0_pay1 (F := Ideal) (iblk m c 0 t) (iblk m c 1 t) = _
  refine pay_eq _ _ _ fun u p n => ?_
  have hu : u.val = 0 := by omega
  have e2 : ((cfg0.win 2).blk t).view.emb (ix3 u p n) = ix3 (⟨t.val, hb⟩ : Fin 64) p n :=
    idx_spikes _ _ _ _
      (by show win0_2.index t (0 : Fin 3) * 1 + 1 * u.val = t.val; omega)
      (by show win0_2.index t (1 : Fin 3) * 128 + 1 * p.val = p.val; omega)
      (by show win0_2.index t (2 : Fin 3) * 8192 + 1 * n.val = n.val; omega)
  show prod (selArr m c) (spikeArr m c) (((cfg0.win 2).blk t).view.emb (ix3 u p n)) = _
  rw [e2, prod_apply]
  refine Finset.sum_congr rfl fun k _ => ?_
  have e0 : ((cfg0.win 0).blk t).view.emb (ix3 (0 : Fin 1) p k) = ix3 (⟨t.val, hb⟩ : Fin 64) p k :=
    idx_sel _ _ _ _
      (by show win0_0.index t (0 : Fin 3) * 1 + 1 * 0 = t.val; omega)
      (by show win0_0.index t (1 : Fin 3) * 128 + 1 * p.val = p.val; omega)
      (by show win0_0.index t (2 : Fin 3) * 128 + 1 * k.val = k.val; omega)
  have e1 : ((cfg0.win 1).blk t).view.emb (ix3 (0 : Fin 1) k n) = ix3 (⟨t.val, hb⟩ : Fin 64) k n :=
    idx_spikes _ _ _ _
      (by show win0_1.index t (0 : Fin 3) * 1 + 1 * 0 = t.val; omega)
      (by show win0_1.index t (1 : Fin 3) * 128 + 1 * k.val = k.val; omega)
      (by show win0_1.index t (2 : Fin 3) * 8192 + 1 * n.val = n.val; omega)
  show selArr m c (ix3 (⟨t.val, hb⟩ : Fin 64) p k) * spikeArr m c (ix3 (⟨t.val, hb⟩ : Fin 64) k n)
    = selArr m c (((cfg0.win 0).blk t).view.emb (ix3 (0 : Fin 1) p k))
      * spikeArr m c (((cfg0.win 1).blk t).view.emb (ix3 (0 : Fin 1) k n))
  rw [e0, e1]

/-- An index of the array is in point `t`'s block iff each coordinate is in the block's range on its axis. -/
theorem mem_blk (t : Fin cfg0.N) (i : S64x128x8192.Idx) :
    i ∈ ((cfg0.win 2).blk t).view.set ↔ ∀ a : Fin 3, win0_2.index t a * S1x128x8192.size a ≤ (i a).val
      ∧ (i a).val < win0_2.index t a * S1x128x8192.size a + S1x128x8192.size a := by
  show i ∈ ((View.whole main_v29).slice (win0_2.rect t)).set ↔ _
  rw [View.set_slice_whole, Rect.mem_set_unit]
  exact Iff.rfl

/-- The 64 blocks tile the output: the point whose block holds an index is the index's batch. -/
theorem cover (i : S64x128x8192.Idx) :
    ∃ t : Fin cfg0.N, (cfg0.win 2).flush t = true ∧ i ∈ ((cfg0.win 2).blk t).view.set := by
  have h0 : (i 0).val < 64 := (i 0).isLt
  have h1 : (i 1).val < 128 := (i 1).isLt
  have h2 : (i 2).val < 8192 := (i 2).isLt
  have hN : (i 0).val < cfg0.N := by rw [show cfg0.N = 64 from N_0]; exact h0
  obtain ⟨-, -, -, -, -, -, o0, o1, o2⟩ := blockIndex ⟨(i 0).val, hN⟩
  have o0' : win0_2.index ⟨(i 0).val, hN⟩ (0 : Fin 3) = (i 0).val := o0
  refine ⟨⟨(i 0).val, hN⟩, flush0_2 _, ?_⟩
  rw [mem_blk]
  intro a
  match a with
  | ⟨0, _⟩ =>
    show win0_2.index ⟨(i 0).val, hN⟩ (0 : Fin 3) * 1 ≤ (i 0).val
      ∧ (i 0).val < win0_2.index ⟨(i 0).val, hN⟩ (0 : Fin 3) * 1 + 1
    omega
  | ⟨1, _⟩ =>
    show win0_2.index ⟨(i 0).val, hN⟩ (1 : Fin 3) * 128 ≤ (i 1).val
      ∧ (i 1).val < win0_2.index ⟨(i 0).val, hN⟩ (1 : Fin 3) * 128 + 128
    omega
  | ⟨2, _⟩ =>
    show win0_2.index ⟨(i 0).val, hN⟩ (2 : Fin 3) * 8192 ≤ (i 2).val
      ∧ (i 2).val < win0_2.index ⟨(i 0).val, hN⟩ (2 : Fin 3) * 8192 + 8192
    omega

/-- THE ARRAY after the run is the batched product of the selection matrices and the spikes as the call finds them. -/
theorem out_eq (c : Dev nD) : outArr m c = prod (selArr m c) (spikeArr m c) :=
  (dats m 0 c).arrAt_eq_of_cover 2 (prod (selArr m c) (spikeArr m c)) (fun t _ => flushed_eq m c t) cover

/-- Entry (b, t, n) of the output after the run: row `t` of batch `b`'s selection matrix times column `n` of batch
    `b`'s spikes. -/
theorem out_apply (c : Dev nD) (b : Fin 64) (t : Fin 128) (n : Fin 8192) :
    outArr m c (ix3 b t n) = ∑ k : Fin 128, selArr m c (ix3 b t k) * spikeArr m c (ix3 b k n) :=
  (congrFun (out_eq m c) (ix3 b t n)).trans (prod_apply _ _ b t n)

end Cert.KernelIdeal.GatherMatmul

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.SegmentMax.lean ====
/-
  THE REFERENCE'S LAST WRITER. The reference sends source slot `t` of batch `b` to segment `129·b + target` (target
  128 when the move does not count), takes a segment maximum of the source slots from INT_MIN over the 8256 segments, and
  keeps segments 0..127 of each batch. Read at (b, tout), that word is below an integer bound exactly when INT_MIN is and
  every source slot whose segment is `129·b + tout` is.
-/
import proofs.«418776_j65687229825160_1_alg».proof.Proof.RefRead
import proofs.«418776_j65687229825160_1_alg».proof.Proof.LastWriter
import proofs.«418776_j65687229825160_1_alg».proof.Proof.LibWordMax
import proofs.«418776_j65687229825160_1_alg».proof.Proof.LibGatherScatter
import Idealize.ShloMosaic.Lib.Pipeline.Value
import Idealize.ShloMosaic.Lib.ValueIdx

noncomputable section

namespace Cert.ReferenceIdeal.SegmentMax

open Cert.ReferenceIdeal Cert.ReferenceIdeal.Gen Cert.ReferenceIdeal.Read Idealize.ShloMosaic Idealize.ShloMosaic.TcCoe
  Idealize.SL.Sem Idealize.ShloMosaic.ValueIdx

/-! ## Flat positions -/

/-- The flat position of source slot `t` of batch `b'` among the 8192 updates: `128·b' + t`. -/
def slot (b' : Fin 64) (t : Fin 128) : Fin 8192 :=
  ⟨128 * b'.val + t.val, by have := b'.isLt; have := t.isLt; omega⟩

/-- The flat position of output slot `tout` of batch `b` among the 8256 segments: `129·b + tout`. -/
def flat (b : Fin 64) (tout : Fin 128) : Fin 8256 :=
  ⟨129 * b.val + tout.val, by have := b.isLt; have := tout.isLt; omega⟩

/-- Every update position is the flat position of one (batch, source slot) pair: quotient and remainder by 128. -/
theorem exists_slot (e : Fin 8192) : ∃ (b' : Fin 64) (t : Fin 128), e = slot b' t := by
  have he := e.isLt
  refine ⟨⟨e.val / 128, by omega⟩, ⟨e.val % 128, by omega⟩, Fin.ext ?_⟩
  show e.val = 128 * (e.val / 128) + e.val % 128
  omega

/-- Row `e` of the [8192, 1] column of segment ids is position `e` of the flat vector it was broadcast from. -/
theorem idx20_col (e : Fin 8192) : idx_main_v20 (StableHlo.Predicate.ixP e) = ix1 e := by
  funext a
  match a with
  | ⟨0, _⟩ => rfl

/-- The flat update position of (b', t) reads back through the reshape of the segment ids as the pair (b', t). -/
theorem idx16_slot (b' : Fin 64) (t : Fin 128) : idx_main_v16 (ix1 (slot b' t)) = ix2 b' t := by
  have ht := t.isLt
  funext a
  match a with
  | ⟨0, _⟩ => exact Fin.ext (show (128 * b'.val + t.val) / 128 = b'.val by omega)
  | ⟨1, _⟩ => exact Fin.ext (show (128 * b'.val + t.val) % 128 = t.val by omega)

/-- The same through the reshape of the source slots. -/
theorem idx18_slot (b' : Fin 64) (t : Fin 128) : idx_main_v18 (ix1 (slot b' t)) = ix2 b' t := by
  have ht := t.isLt
  funext a
  match a with
  | ⟨0, _⟩ => exact Fin.ext (show (128 * b'.val + t.val) / 128 = b'.val by omega)
  | ⟨1, _⟩ => exact Fin.ext (show (128 * b'.val + t.val) % 128 = t.val by omega)

/-- Output slot (b, tout), through the slice and the reshape, is flat segment `129·b + tout`. -/
theorem idx22_flat (b : Fin 64) (tout : Fin 128) : idx_main_v22 (idx_main_v23 (ix2 b tout)) = ix1 (flat b tout) := by
  funext a
  match a with
  | ⟨0, _⟩ => exact Fin.ext (show b.val * 129 + tout.val = 129 * b.val + tout.val by omega)

/-! ## The scatter's operands read at a flat position -/

/-- The segment id of (b', t), before the reshape: `129·b'` plus the target, or plus 128 when the move does not count. -/
theorem v15_read (sh : S64x128.Idx → BitVec 32) (b' : Fin 64) (t : Fin 128) :
    val_main_v15 (F := Ideal) sh (ix2 b' t) = Cert.LastWriter.seg sh b' t := by
  rw [val_main_v15_apply, val_main_v14_apply, val_main_v13_apply, val_main_v11_apply, val_main_v10_apply,
    val_main_v12_apply, val_main_c_2_apply, val_main_v9_apply, val_main_v8_apply, val_main_v5_apply,
    val_main_v7_apply, val_main_v3_apply, val_main_v2_apply, val_main_v1_apply, val_main_v0_apply,
    val_main_v4_apply, val_main_c_apply, val_main_v6_apply, val_main_c_0_apply, val_main_call0_v1_apply,
    val_main_call0_v0_apply, val_main_c_1_apply]
  rfl

/-- The column of segment ids at row `128·b' + t` holds the segment of (b', t). -/
theorem v20_slot (sh : S64x128.Idx → BitVec 32) (b' : Fin 64) (t : Fin 128) :
    val_main_v20 (F := Ideal) sh (StableHlo.Predicate.ixP (slot b' t)) = Cert.LastWriter.seg sh b' t := by
  rw [val_main_v20_apply, idx20_col, val_main_v16_apply, idx16_slot, v15_read]

/-- The update at position `128·b' + t` is the source slot `t`. -/
theorem v18_slot (b' : Fin 64) (t : Fin 128) :
    val_main_v18 (F := Ideal) (ix1 (slot b' t)) = BitVec.ofNat 32 t.val := by
  rw [val_main_v18_apply, idx18_slot, val_main_v17_apply, val_main_v0_apply]

/-! ## The segment maximum, bounded -/

/-- The update at position `128·b' + t` lands on flat segment `129·b + tout` exactly when the segment of (b', t)
    reads signed as that number. -/
theorem lands_iff (sh : S64x128.Idx → BitVec 32) (b : Fin 64) (tout : Fin 128) (b' : Fin 64) (t : Fin 128) :
    scatter_S8256_S8192x1_S8192_n_0_0_1.resultIdx? (ix1 (slot b' t)) (val_main_v20 (F := Ideal) sh) = some (ix1 (flat b tout))
      ↔ (Cert.LastWriter.seg sh b' t).toInt = ((129 * b.val + tout.val : Nat) : Int) := by
  rw [RowOps.resultIdx?_row1_iff scatter_S8256_S8192x1_S8192_n_0_0_1 rfl rfl rfl rfl]
  show (val_main_v20 (F := Ideal) sh (StableHlo.Predicate.ixP (slot b' t))).toInt = ((129 * b.val + tout.val : Nat) : Int) ↔ _
  rw [v20_slot]

/-- The reference's last-writer word of (b, tout), bounded: below `z` exactly when INT_MIN is and every source slot of
    segment `129·b + tout` is. -/
theorem src_le (sh : S64x128.Idx → BitVec 32) (b : Fin 64) (tout : Fin 128) (z : Int) :
    (val_main_v23 (F := Ideal) sh (ix2 b tout)).toInt ≤ z ↔ ((-2147483648 : Int) ≤ z ∧
      ∀ (b' : Fin 64) (t : Fin 128),
        (Cert.LastWriter.seg sh b' t).toInt = ((129 * b.val + tout.val : Nat) : Int) → (t.val : Int) ≤ z) := by
  -- the word is the segment maximum at flat segment 129·b + tout
  rw [val_main_v23_apply, val_main_v22_apply, idx22_flat]
  unfold val_main_v21
  -- a maximum from INT_MIN lies below z exactly when INT_MIN and every update landing there do
  rw [WordMax.scatter_maxsi_toInt_le, val_main_v19_apply, val_main_c_3_apply, Cert.LastWriter.toInt_intMin]
  refine and_congr Iff.rfl ⟨fun H b' t hs => ?_, fun H j hj => ?_⟩
  · -- the pair (b', t) is the update at position 128·b' + t
    have h := H (ix1 (slot b' t)) ((lands_iff sh b tout b' t).2 hs)
    rwa [v18_slot, Cert.LastWriter.toInt_slot] at h
  · -- an update position is a pair (b', t)
    obtain ⟨b', t, he⟩ := exists_slot (j 0)
    have hj' : j = ix1 (slot b' t) := by rw [← he]; exact eq_ix1 j
    subst hj'
    rw [v18_slot, Cert.LastWriter.toInt_slot]
    exact H b' t ((lands_iff sh b tout b' t).1 hj)

end Cert.ReferenceIdeal.SegmentMax

end
-- ==== Proof.RowGather.lean ====
/-
  THE REFERENCE'S RESULT AT AN ENTRY, from its last-writer word. The reference clips the word into [0, 127], gathers row
  (b, clipped word) of the spikes (the pair of start indices joined along a last axis of two; both are already in
  range, so the wrap of negative indices and the gather's clamp change nothing), and keeps the row where the word is not
  negative, zero elsewhere.
-/
import proofs.«418776_j65687229825160_1_alg».proof.Proof.RefRead
import proofs.«418776_j65687229825160_1_alg».proof.Proof.LastWriter
import Idealize.ShloMosaic.Lib.Pipeline.Value
import Idealize.ShloMosaic.Lib.ValueIdx
import Idealize.ShloMosaic.PureOps.Ideal.Laws

noncomputable section

namespace Cert.ReferenceIdeal.RowGather

open Cert.ReferenceIdeal Cert.ReferenceIdeal.Gen Cert.ReferenceIdeal.Read Idealize.ShloMosaic Idealize.ShloMosaic.TcCoe
  Idealize.SL.Sem Idealize.ShloMosaic.ValueIdx

/-! ## The gather of one row by a pair of start indices -/

/-- The reference's gather: the operand's two leading axes collapsed and start-indexed by the pair (entries 0 and 1 along
    the start indices' last axis), its last axis whole and read by the result's last axis. Result entry (b, t, n) is the
    operand's entry (r₀, r₁, n), r₀ and r₁ the two start indices of (b, t) read signed and clamped into [0, 63] and
    [0, 127]. -/
theorem gather_pair_apply {α : Type} (x : S64x128x8192.Idx → α) (idx : IVec S64x128x2 32) (b : Fin 64) (t : Fin 128)
    (n : Fin 8192) (r₀ : Fin 64) (r₁ : Fin 128)
    (h₀ : min (idx (ix3 b t (0 : Fin 2))).toInt.toNat 63 = r₀.val)
    (h₁ : min (idx (ix3 b t (1 : Fin 2))).toInt.toNat 127 = r₁.val) :
    Host.gather gather_S64x128x8192_S64x128x2_S64x128x8192_2_01_n_n_01_2_118192 x idx (ix3 b t n) = x (ix3 r₀ r₁ n) := by
  unfold Host.gather
  congr 1
  funext a
  refine Fin.ext ?_
  match a with
  | ⟨0, _⟩ =>
    -- axis 0: collapsed and start-indexed, the clamped first start index alone
    show GatherDims.start _ (ix3 b t n) idx 0 + GatherDims.batchCoord _ (ix3 b t n) 0 + GatherDims.offCoord _ (ix3 b t n) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : GatherDims.siIdx gather_S64x128x8192_S64x128x2_S64x128x8192_2_01_n_n_01_2_118192 (ix3 b t n)
        ⟨List.idxOf (0 : Fin 3) gather_S64x128x8192_S64x128x2_S64x128x8192_2_01_n_n_01_2_118192.startIndexMap,
          List.idxOf_lt_length_iff.2 (by decide)⟩ = ix3 b t (0 : Fin 2) := by
      funext c; refine Fin.ext ?_
      match c with
      | ⟨0, _⟩ => rfl
      | ⟨1, _⟩ => rfl
      | ⟨2, _⟩ => rfl
    rw [hsi]
    exact h₀
  | ⟨1, _⟩ =>
    -- axis 1: collapsed and start-indexed, the clamped second start index alone
    show GatherDims.start _ (ix3 b t n) idx 1 + GatherDims.batchCoord _ (ix3 b t n) 1 + GatherDims.offCoord _ (ix3 b t n) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : GatherDims.siIdx gather_S64x128x8192_S64x128x2_S64x128x8192_2_01_n_n_01_2_118192 (ix3 b t n)
        ⟨List.idxOf (1 : Fin 3) gather_S64x128x8192_S64x128x2_S64x128x8192_2_01_n_n_01_2_118192.startIndexMap,
          List.idxOf_lt_length_iff.2 (by decide)⟩ = ix3 b t (1 : Fin 2) := by
      funext c; refine Fin.ext ?_
      match c with
      | ⟨0, _⟩ => rfl
      | ⟨1, _⟩ => rfl
      | ⟨2, _⟩ => rfl
    rw [hsi]
    exact h₁
  | ⟨2, _⟩ =>
    -- axis 2: neither start-indexed nor collapsed, the result's own last coordinate
    show GatherDims.start _ (ix3 b t n) idx 2 + GatherDims.batchCoord _ (ix3 b t n) 2 + GatherDims.offCoord _ (ix3 b t n) 2 = _
    rw [GatherDims.batchCoord_eq_zero _ _ _ List.not_mem_nil]
    unfold GatherDims.start GatherDims.offCoord
    rw [dif_neg (by decide), dif_pos (by decide), Nat.zero_add]
    rfl

/-! ## Words -/

/-- "Is it below zero" of a word that reads signed as a non-negative number is the bit 0. -/
theorem slt_zero_of_nonneg (v : BitVec 32) (h : 0 ≤ v.toInt) : IntOp.cmpi .slt v 0#32 = 0#1 := by
  show BitVec.ofBool (v.slt 0#32) = 0#1
  have hf : v.slt 0#32 = false := by
    simp only [BitVec.slt, Cert.LastWriter.toInt_zero32]
    exact decide_eq_false (not_lt.mpr h)
  rw [hf]; rfl

/-- The wrap of a negative index (add the extent when the index is below zero) leaves a non-negative index alone. -/
theorem wrap_of_nonneg (v k : BitVec 32) (h : 0 ≤ v.toInt) :
    Scalar.select (IntOp.cmpi .slt v 0#32) (IntOp.addi v k) v = v := by
  rw [slt_zero_of_nonneg v h, select_zero]

/-- "Is it at least zero" is the bit 1 exactly when the word reads signed as a non-negative number. -/
theorem sge_zero_eq_one_iff (v : BitVec 32) : IntOp.cmpi .sge v 0#32 = 1#1 ↔ 0 ≤ v.toInt := by
  show BitVec.ofBool ((0#32 : BitVec 32).sle v) = 1#1 ↔ _
  rw [WordArith.ofBool_eq_one_iff]
  simp only [BitVec.sle, decide_eq_true_eq, Cert.LastWriter.toInt_zero32]

/-- The clip of a word into [0, 127] reads signed as the clipped number. -/
theorem toInt_clip (v : BitVec 32) : (IntOp.minsi 127#32 (IntOp.maxsi 0#32 v)).toInt = min 127 (max 0 v.toInt) := by
  rw [WordMax.toInt_minsi, WordMax.toInt_maxsi, Cert.LastWriter.toInt_127, Cert.LastWriter.toInt_zero32]

/-- A batch number, as a word, reads signed as itself. -/
theorem toInt_batch (b : Fin 64) : (BitVec.ofNat 32 b.val).toInt = (b.val : Int) :=
  WordArith.toInt_ofNat_small b.val (by have := b.isLt; omega)

/-- The batch number is in range for the gather: its clamp into [0, 63] changes nothing. -/
theorem batch_in_range (b : Fin 64) : min (BitVec.ofNat 32 b.val).toInt.toNat 63 = b.val := by
  rw [toInt_batch, Int.toNat_natCast]; have := b.isLt; omega

/-- The clipped word is in range for the gather: clamped into [0, 127] it is the clipped row number. -/
theorem clip_in_range (v : BitVec 32) :
    min (IntOp.minsi 127#32 (IntOp.maxsi 0#32 v)).toInt.toNat 127 = (Cert.LastWriter.clipIdx v).val := by
  show _ = min v.toInt.toNat 127
  rw [toInt_clip]; omega

/-! ## The pair of start indices -/

/-- Entry 0 of the pair at (b, t) is the batch number: the wrap of a negative index never fires on it. -/
theorem v42_zero (sh : S64x128.Idx → BitVec 32) (b : Fin 64) (t : Fin 128) :
    val_main_v42 (F := Ideal) sh (ix3 b t (0 : Fin 2)) = BitVec.ofNat 32 b.val := by
  unfold val_main_v42
  rw [concatenate_pair_apply_left (t := S64x128x2) (s₁ := S64x128x1) (s₂ := S64x128x1) (2 : Fin 3) _ _ _
    (ix3 b t (0 : Fin 2)) rfl (ix3 b t (0 : Fin 1))
    (fun c => match c with | ⟨0, _⟩ => rfl | ⟨1, _⟩ => rfl | ⟨2, _⟩ => rfl)]
  simp only [val_main_v40_apply, val_main_v39_apply, val_main_v33_apply, val_main_v30_apply, val_main_v32_apply,
    val_main_v28_apply, val_main_v27_apply, val_main_v29_apply, val_main_c_7_apply]
  exact wrap_of_nonneg (BitVec.ofNat 32 b.val) _ (by rw [toInt_batch]; omega)

/-- Entry 1 of the pair at (b, t) is the last-writer word of (b, t) clipped into [0, 127]: the clipped word is never
    negative, so the wrap of a negative index never fires on it either. -/
theorem v42_one (sh : S64x128.Idx → BitVec 32) (b : Fin 64) (t : Fin 128) :
    val_main_v42 (F := Ideal) sh (ix3 b t (1 : Fin 2))
      = IntOp.minsi 127#32 (IntOp.maxsi 0#32 (val_main_v23 (F := Ideal) sh (ix2 b t))) := by
  have hi : idx_main_v41 (ix3 b t (0 : Fin 1)) = ix2 b t := by
    funext a; match a with | ⟨0, _⟩ => rfl | ⟨1, _⟩ => rfl
  unfold val_main_v42
  rw [concatenate_pair_apply_right (t := S64x128x2) (s₁ := S64x128x1) (s₂ := S64x128x1) (2 : Fin 3) _ _ _
    (ix3 b t (1 : Fin 2)) rfl rfl (ix3 b t (0 : Fin 1))
    (fun c hc => match c, hc with | ⟨0, _⟩, _ => rfl | ⟨1, _⟩, _ => rfl | ⟨2, _⟩, hc => absurd rfl hc) rfl]
  rw [val_main_v41_apply, hi, val_main_v38_apply, val_main_v35_apply, val_main_v34_apply, val_main_c_9_apply]
  have hclip : val_main_v26 (F := Ideal) sh (ix2 b t)
      = IntOp.minsi 127#32 (IntOp.maxsi 0#32 (val_main_v23 (F := Ideal) sh (ix2 b t))) := by
    simp only [val_main_v26_apply, val_main_call1_v4_apply, val_main_call1_v3_apply, val_main_c_6_apply,
      val_main_call1_v2_apply, val_main_call1_v1_apply, val_main_call1_v0_apply, val_main_c_5_apply]
  rw [val_main_v37_apply, hclip]
  exact wrap_of_nonneg _ _ (by rw [toInt_clip]; omega)

/-! ## The result -/

/-- Entry (b, tout, n) of the reference's result is the row its last-writer word of (b, tout) selects, at column `n`. -/
theorem out_apply (x : S64x128x8192.Idx → EReal) (sh : S64x128.Idx → BitVec 32) (b : Fin 64) (tout : Fin 128)
    (n : Fin 8192) :
    (val_main_v45 (F := Ideal) x sh : S64x128x8192.Idx → EReal) (ix3 b tout n)
      = Cert.LastWriter.pick (val_main_v23 (F := Ideal) sh (ix2 b tout)) (fun k => x (ix3 b k n)) := by
  have hi : idx_main_v44 (idx_main_call2_v0 (ix3 b tout n)) = ix2 b tout := by
    funext a; match a with | ⟨0, _⟩ => rfl | ⟨1, _⟩ => rfl
  rw [val_main_v45_apply, val_main_call2_v0_apply, val_main_v44_apply, hi, val_main_v25_apply, val_main_v24_apply,
    val_main_c_4_apply, val_main_call2_v1_apply, val_main_cst_apply]
  unfold Cert.LastWriter.pick
  by_cases h : 0 ≤ (val_main_v23 (F := Ideal) sh (ix2 b tout)).toInt
  · -- the word is not negative: the row is kept, and both start indices are already in range
    rw [if_pos h, (sge_zero_eq_one_iff _).2 h, select_one]
    unfold val_main_v43
    exact gather_pair_apply x (val_main_v42 (F := Ideal) sh) b tout n b (Cert.LastWriter.clipIdx _)
      (by rw [v42_zero]; exact batch_in_range b)
      (by rw [v42_one]; exact clip_in_range _)
  · -- the word is negative: zero
    rw [if_neg h, eq_zero_of_ne_one (fun hc => h ((sge_zero_eq_one_iff _).1 hc)), select_zero]
    exact Ideal.ofBits_zero_f32

end Cert.ReferenceIdeal.RowGather

end
-- ==== Proof.lean ====
/-
  A time-jitter of a spike tensor, two ways. Source slot `t` of batch `b` is moved to slot `t + shift[b, t]`; moves that
  leave [0, 128) are dropped, colliding moves are won by the largest source slot, and a slot nobody lands on stays zero.
  The kernel builds, from the shifts alone, a 0/1 selection matrix per batch (row `tout` is the one-hot vector of the last
  writer of `tout`, or zero) and multiplies it into the batch's block of spikes. The reference finds the last writer by a
  segment maximum and gathers its row, zero where there is none.
  At the ideal values the matrix product's sum has at most one term that is not `0 · x`, so it is the selected row; and
  the two programs' last-writer words (−1 against INT_MIN for an empty slot, equal otherwise) are looked at only through
  the test "≥ 0" and the clip into [0, 127], which do not tell them apart. Both results are one function `LastWriter.G`
  of the arguments.
-/
import proofs.«418776_j65687229825160_1_alg».proof.Defs
import proofs.«418776_j65687229825160_1_alg».proof.Proof.Gen.Kernel
import proofs.«418776_j65687229825160_1_alg».proof.Proof.Gen.Kernel.Skeleton
import proofs.«418776_j65687229825160_1_alg».proof.Proof.Gen.Kernel.Launch
import proofs.«418776_j65687229825160_1_alg».proof.Proof.Gen.Kernel.Points
import proofs.«418776_j65687229825160_1_alg».proof.Proof.Gen.Kernel.Frame
import proofs.«418776_j65687229825160_1_alg».proof.Proof.Gen.KernelIdeal
import proofs.«418776_j65687229825160_1_alg».proof.Proof.Gen.KernelIdeal.Skeleton
import proofs.«418776_j65687229825160_1_alg».proof.Proof.Gen.KernelIdeal.Launch
import proofs.«418776_j65687229825160_1_alg».proof.Proof.Gen.KernelIdeal.Points
import proofs.«418776_j65687229825160_1_alg».proof.Proof.Gen.KernelIdeal.Frame
import proofs.«418776_j65687229825160_1_alg».proof.Proof.Gen.ReferenceIdeal
import proofs.«418776_j65687229825160_1_alg».proof.Proof.Gen.Pre_finite_inputs
import proofs.«418776_j65687229825160_1_alg».proof.Proof.Gen.KernelIdeal.Value
import proofs.«418776_j65687229825160_1_alg».proof.Proof.RefRun
import proofs.«418776_j65687229825160_1_alg».proof.Proof.RefRunStretches
import proofs.«418776_j65687229825160_1_alg».proof.Proof.RefRead
import proofs.«418776_j65687229825160_1_alg».proof.Proof.LastWriter
import proofs.«418776_j65687229825160_1_alg».proof.Proof.LastWriterSegments
import proofs.«418776_j65687229825160_1_alg».proof.Proof.KernelArrays
import proofs.«418776_j65687229825160_1_alg».proof.Proof.SelectionMatrix
import proofs.«418776_j65687229825160_1_alg».proof.Proof.GatherMatmul
import proofs.«418776_j65687229825160_1_alg».proof.Proof.SegmentMax
import proofs.«418776_j65687229825160_1_alg».proof.Proof.RowGather
import Idealize.ShloMosaic.Adequacy
import Idealize.ShloMosaic.Init

noncomputable section

namespace Cert.Proof

open Idealize.ShloMosaic Idealize.ShloMosaic.TcCoe Idealize.SL.Sem Idealize.ShloMosaic.ValueIdx

/-! ## Both results are the last writer's row -/

/-- The kernel's output array after the run is `G` of the shifts and the spikes as launched: entry by entry the matrix
    product's sum, whose row of the selection matrix is the one-hot row of the last-writer word. -/
theorem kernel_out (m : (ℓ : Loc Cert.KernelIdeal.nD Cert.KernelIdeal.τ Cert.KernelIdeal.sig) → Buf (Elt Ideal) ℓ)
    (c : Dev Cert.KernelIdeal.nD) :
    Cert.KernelIdeal.Arrays.outArr m c
      = Cert.LastWriter.G (Cert.KernelIdeal.Arrays.shiftArr m c)
          (m ((c : Thread Cert.KernelIdeal.nD Cert.KernelIdeal.τ).loc Cert.KernelIdeal.main_arg0)) := by
  funext i
  obtain ⟨b, t, n, rfl⟩ : ∃ (b : Fin 64) (t : Fin 128) (n : Fin 8192), i = ix3 b t n := ⟨i 0, i 1, i 2, eq_ix3 i⟩
  rw [Cert.KernelIdeal.GatherMatmul.out_apply, Cert.LastWriter.G_apply]
  refine (Finset.sum_congr rfl (fun k _ => congrArg (· * _) (Cert.KernelIdeal.SelectionMatrix.sel_apply m c b t k))).trans ?_
  refine (Cert.LastWriter.sum_onehot _ _).trans ?_
  show Cert.LastWriter.pick _ (fun k => Cert.KernelIdeal.Gen.V m c Cert.KernelIdeal.main_arg0 _) = _
  rw [Cert.KernelIdeal.Gen.V_main_arg0]

/-- The reference's result is `G` of its arguments: the row its last-writer word selects, and that word has the same
    cap below by −1 as the kernel's. -/
theorem reference_out (m : (ℓ : Loc Cert.ReferenceIdeal.nD Cert.ReferenceIdeal.τ Cert.ReferenceIdeal.sig) → Buf (Elt Ideal) ℓ)
    (c : Dev Cert.ReferenceIdeal.nD) :
    (Cert.ReferenceIdeal.Value.res_main_v45 (F := Ideal) m c : Cert.ReferenceIdeal.S64x128x8192.Idx → EReal)
      = Cert.LastWriter.G (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg0)) := by
  rw [Cert.ReferenceIdeal.Read.val_main_v45_eq]
  funext i
  obtain ⟨b, t, n, rfl⟩ : ∃ (b : Fin 64) (t : Fin 128) (n : Fin 8192), i = ix3 b t n := ⟨i 0, i 1, i 2, eq_ix3 i⟩
  rw [Cert.ReferenceIdeal.RowGather.out_apply, Cert.LastWriter.G_apply]
  exact Cert.LastWriter.pick_congr _ _
    (Cert.LastWriter.cap_of_segments _ _ _ _ (fun z => Cert.ReferenceIdeal.SegmentMax.src_le _ _ _ z)) _

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal values. -/
theorem preserves : Cert.preserves_Kernel_KernelIdeal := trivial

/-- From memories that agree on the spikes and the shifts, both programs end with `G` of them. -/
theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  show (Cert.ReferenceIdeal.Value.res_main_v45 (F := Ideal) m' c : Cert.ReferenceIdeal.S64x128x8192.Idx → EReal)
    = Cert.KernelIdeal.Arrays.outArr m c
  rw [reference_out, kernel_out, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
